-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x2 : Shape := ⟨3, ![64, 1024, 2]⟩
abbrev S65536x256 : Shape := ⟨2, ![65536, 256]⟩
abbrev S8x32 : Shape := ⟨2, ![8, 32]⟩
abbrev S32 : Shape := ⟨1, ![32]⟩
abbrev S32x1024 : Shape := ⟨2, ![32, 1024]⟩
abbrev S256x1024 : Shape := ⟨2, ![256, 1024]⟩
abbrev S1024 : Shape := ⟨1, ![1024]⟩
abbrev S256x32 : Shape := ⟨2, ![256, 32]⟩
abbrev S_ : Shape := ⟨0, ![]⟩

class Facts : Prop where
  bcast_S_S64x1024x2 : S_.BroadcastsInDim S64x1024x2 (![] : Fin 0 → Fin S64x1024x2.rank)
  reducesTo_S64x1024x2_S_d0_1_2 : S64x1024x2.ReducesTo [0, 1, 2] S_
  h_S_ : 0 < S_.numel
  bcast_S_S65536x256 : S_.BroadcastsInDim S65536x256 (![] : Fin 0 → Fin S65536x256.rank)
  reducesTo_S65536x256_S_d0_1 : S65536x256.ReducesTo [0, 1] S_
  bcast_S_S8x32 : S_.BroadcastsInDim S8x32 (![] : Fin 0 → Fin S8x32.rank)
  reducesTo_S8x32_S_d0_1 : S8x32.ReducesTo [0, 1] S_
  bcast_S_S32 : S_.BroadcastsInDim S32 (![] : Fin 0 → Fin S32.rank)
  reducesTo_S32_S_d0 : S32.ReducesTo [0] S_
  bcast_S_S32x1024 : S_.BroadcastsInDim S32x1024 (![] : Fin 0 → Fin S32x1024.rank)
  reducesTo_S32x1024_S_d0_1 : S32x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S256x32 : S_.BroadcastsInDim S256x32 (![] : Fin 0 → Fin S256x32.rank)
  reducesTo_S256x32_S_d0_1 : S256x32.ReducesTo [0, 1] S_

variable [Facts]

def fn_part3 {F : FTy → Type} [FloatOps F] (main_arg11 : FVec F S32 .f32) (main_v48 : IVec S_ 1) (main_v49 : FVec F S256x32 .f32) (main_v50 : FVec F S256x32 .f32) : IVec S_ 1 :=
  let main_v51 : IVec S256x32 1 := cmpf .olt main_v49 main_v50
  let main_c_19 : IVec S_ 1 := constantI S_ 1 1#1
  let main_v52 : IVec S_ 1 := (fun x v => Host.reduce IntOp.andi x v reducesTo_S256x32_S_d0_1 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  main_v58

def fn_part2 {F : FTy → Type} [FloatOps F] (main_arg7 : FVec F S256x1024 .f32) (main_arg8 : FVec F S1024 .f32) (main_arg9 : FVec F S1024 .f32) (main_arg10 : FVec F S256x32 .f32) (main_arg11 : FVec F S32 .f32) (main_v33 : IVec S_ 1) : IVec S_ 1 :=
  let main_v34 : FVec F S256x1024 .f32 := Host.absf main_arg7
  let main_cst_12 : FVec F S_ .f32 := constant S_ .f32 0x7F800000#32
  let main_v35 : FVec F S256x1024 .f32 := broadcastInDim S256x1024 ![] bcast_S_S256x1024 main_cst_12
  let main_v36 : IVec S256x1024 1 := cmpf .olt main_v34 main_v35
  let main_c_13 : IVec S_ 1 := constantI S_ 1 1#1
  let main_v37 : IVec S_ 1 := (fun x v => Host.reduce IntOp.andi x v reducesTo_S256x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S256x32 .f32 := Host.absf main_arg10
  let main_cst_18 : FVec F S_ .f32 := constant S_ .f32 0x7F800000#32
  let main_v50 : FVec F S256x32 .f32 := broadcastInDim S256x32 ![] bcast_S_S256x32 main_cst_18
  fn_part3 (F := F) main_arg11 main_v48 main_v49 main_v50

def fn_part1 {F : FTy → Type} [FloatOps F] (main_arg4 : FVec F S8x32 .f32) (main_arg5 : FVec F S32 .f32) (main_arg6 : FVec F S32x1024 .f32) (main_arg7 : FVec F S256x1024 .f32) (main_arg8 : FVec F S1024 .f32) (main_arg9 : FVec F S1024 .f32) (main_arg10 : FVec F S256x32 .f32) (main_arg11 : FVec F S32 .f32) (main_v13 : IVec S_ 1) (main_v16 : IVec S65536x256 1) : IVec S_ 1 :=
  let main_c_5 : IVec S_ 1 := constantI S_ 1 1#1
  let main_v17 : IVec S_ 1 := (fun x v => Host.reduce IntOp.andi x v reducesTo_S65536x256_S_d0_1 h_S_) main_v16 main_c_5
  let main_v18 : IVec S_ 1 := andi main_v13 main_v17
  let main_v19 : FVec F S8x32 .f32 := Host.absf main_arg4
  let main_cst_6 : FVec F S_ .f32 := constant S_ .f32 0x7F800000#32
  let main_v20 : FVec F S8x32 .f32 := broadcastInDim S8x32 ![] bcast_S_S8x32 main_cst_6
  let main_v21 : IVec S8x32 1 := cmpf .olt main_v19 main_v20
  let main_c_7 : IVec S_ 1 := constantI S_ 1 1#1
  let main_v22 : IVec S_ 1 := (fun x v => Host.reduce IntOp.andi x v reducesTo_S8x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x1024 .f32 := Host.absf main_arg6
  let main_cst_10 : FVec F S_ .f32 := constant S_ .f32 0x7F800000#32
  let main_v30 : FVec F S32x1024 .f32 := broadcastInDim S32x1024 ![] bcast_S_S32x1024 main_cst_10
  let main_v31 : IVec S32x1024 1 := cmpf .olt main_v29 main_v30
  let main_c_11 : IVec S_ 1 := constantI S_ 1 1#1
  let main_v32 : IVec S_ 1 := (fun x v => Host.reduce IntOp.andi x v reducesTo_S32x1024_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S64x1024x2 .f32) (main_arg1 : FVec F S64x1024x2 .f32) (main_arg2 : FVec F S65536x256 .f32) (main_arg3 : FVec F S65536x256 .f32) (main_arg4 : FVec F S8x32 .f32) (main_arg5 : FVec F S32 .f32) (main_arg6 : FVec F S32x1024 .f32) (main_arg7 : FVec F S256x1024 .f32) (main_arg8 : FVec F S1024 .f32) (main_arg9 : FVec F S1024 .f32) (main_arg10 : FVec F S256x32 .f32) (main_arg11 : FVec F S32 .f32) : IVec S_ 1 :=
  let main_v0 : FVec F S64x1024x2 .f32 := Host.absf main_arg0
  let main_cst : FVec F S_ .f32 := constant S_ .f32 0x7F800000#32
  let main_v1 : FVec F S64x1024x2 .f32 := broadcastInDim S64x1024x2 ![] bcast_S_S64x1024x2 main_cst
  let main_v2 : IVec S64x1024x2 1 := cmpf .olt main_v0 main_v1
  let main_c : IVec S_ 1 := constantI S_ 1 1#1
  let main_v3 : IVec S_ 1 := (fun x v => Host.reduce IntOp.andi x v reducesTo_S64x1024x2_S_d0_1_2 h_S_) main_v2 main_c
  let main_v4 : FVec F S64x1024x2 .f32 := Host.absf main_arg1
  let main_cst_0 : FVec F S_ .f32 := constant S_ .f32 0x7F800000#32
  let main_v5 : FVec F S64x1024x2 .f32 := broadcastInDim S64x1024x2 ![] bcast_S_S64x1024x2 main_cst_0
  let main_v6 : IVec S64x1024x2 1 := cmpf .olt main_v4 main_v5
  let main_c_1 : IVec S_ 1 := constantI S_ 1 1#1
  let main_v7 : IVec S_ 1 := (fun x v => Host.reduce IntOp.andi x v reducesTo_S64x1024x2_S_d0_1_2 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S65536x256 .f32 := Host.absf main_arg3
  let main_cst_4 : FVec F S_ .f32 := constant S_ .f32 0x7F800000#32
  let main_v15 : FVec F S65536x256 .f32 := broadcastInDim S65536x256 ![] bcast_S_S65536x256 main_cst_4
  let main_v16 : IVec S65536x256 1 := cmpf .olt main_v14 main_v15
  fn_part1 (F := F) main_arg4 main_arg5 main_arg6 main_arg7 main_arg8 main_arg9 main_arg10 main_arg11 main_v13 main_v16
-- ==== Kernel.lean ====
abbrev S64x1024x2 : Shape := ⟨3, ![64, 1024, 2]⟩
abbrev S65536x256 : Shape := ⟨2, ![65536, 256]⟩
abbrev S8x32 : Shape := ⟨2, ![8, 32]⟩
abbrev S32 : Shape := ⟨1, ![32]⟩
abbrev S32x1024 : Shape := ⟨2, ![32, 1024]⟩
abbrev S256x1024 : Shape := ⟨2, ![256, 1024]⟩
abbrev S1024 : Shape := ⟨1, ![1024]⟩
abbrev S256x32 : Shape := ⟨2, ![256, 32]⟩
abbrev S64x1024x4 : Shape := ⟨3, ![64, 1024, 4]⟩
abbrev S65536x4 : Shape := ⟨2, ![65536, 4]⟩
abbrev S_ : Shape := ⟨0, ![]⟩
abbrev S65536 : Shape := ⟨1, ![65536]⟩
abbrev S65536x1 : Shape := ⟨2, ![65536, 1]⟩
abbrev S4 : Shape := ⟨1, ![4]⟩
abbrev S1x4 : Shape := ⟨2, ![1, 4]⟩
abbrev S65536x8 : Shape := ⟨2, ![65536, 8]⟩
abbrev S65536x32 : Shape := ⟨2, ![65536, 32]⟩
abbrev S1x32 : Shape := ⟨2, ![1, 32]⟩
abbrev S1x1024 : Shape := ⟨2, ![1, 1024]⟩
abbrev S4096x32 : Shape := ⟨2, ![4096, 32]⟩
abbrev S4096x256 : Shape := ⟨2, ![4096, 256]⟩
abbrev S32x256 : Shape := ⟨2, ![32, 256]⟩
abbrev S256x256 : Shape := ⟨2, ![256, 256]⟩
abbrev S1x256 : Shape := ⟨2, ![1, 256]⟩

abbrev nBuf : Space → Nat
  | .hbm => 48
  | .vmem => 14
  | .smem => 0
  | _ => 0

abbrev bufTy : (tb : Table) → Fin (tcTables nBuf tb) → BufTy
  | .hbm, ⟨0, _⟩ => ⟨S64x1024x2, .f32⟩
  | .hbm, ⟨1, _⟩ => ⟨S64x1024x2, .f32⟩
  | .hbm, ⟨2, _⟩ => ⟨S65536x256, .f32⟩
  | .hbm, ⟨3, _⟩ => ⟨S65536x256, .f32⟩
  | .hbm, ⟨4, _⟩ => ⟨S8x32, .f32⟩
  | .hbm, ⟨5, _⟩ => ⟨S32, .f32⟩
  | .hbm, ⟨6, _⟩ => ⟨S32x1024, .f32⟩
  | .hbm, ⟨7, _⟩ => ⟨S256x1024, .f32⟩
  | .hbm, ⟨8, _⟩ => ⟨S1024, .f32⟩
  | .hbm, ⟨9, _⟩ => ⟨S1024, .f32⟩
  | .hbm, ⟨10, _⟩ => ⟨S256x32, .f32⟩
  | .hbm, ⟨11, _⟩ => ⟨S32, .f32⟩
  | .hbm, ⟨12, _⟩ => ⟨S64x1024x2, .f32⟩
  | .hbm, ⟨13, _⟩ => ⟨S64x1024x4, .f32⟩
  | .hbm, ⟨14, _⟩ => ⟨S65536x4, .f32⟩
  | .hbm, ⟨15, _⟩ => ⟨S65536x4, .i1⟩
  | .hbm, ⟨16, _⟩ => ⟨S_, .i1⟩
  | .hbm, ⟨17, _⟩ => ⟨S65536, .i1⟩
  | .hbm, ⟨18, _⟩ => ⟨S65536, .i1⟩
  | .hbm, ⟨19, _⟩ => ⟨S65536x1, .i1⟩
  | .hbm, ⟨20, _⟩ => ⟨S_, .f32⟩
  | .hbm, ⟨21, _⟩ => ⟨S_, .f32⟩
  | .hbm, ⟨22, _⟩ => ⟨S65536x4, .i1⟩
  | .hbm, ⟨23, _⟩ => ⟨S65536x4, .f32⟩
  | .hbm, ⟨24, _⟩ => ⟨S65536x4, .f32⟩
  | .hbm, ⟨25, _⟩ => ⟨S_, .f32⟩
  | .hbm, ⟨26, _⟩ => ⟨S4, .f32⟩
  | .hbm, ⟨27, _⟩ => ⟨S1x4, .f32⟩
  | .hbm, ⟨28, _⟩ => ⟨S65536x4, .f32⟩
  | .hbm, ⟨29, _⟩ => ⟨S65536x4, .f32⟩
  | .hbm, ⟨30, _⟩ => ⟨S65536x8, .f32⟩
  | .hbm, ⟨31, _⟩ => ⟨S65536x32, .f32⟩
  | .hbm, ⟨32, _⟩ => ⟨S1x32, .f32⟩
  | .hbm, ⟨33, _⟩ => ⟨S65536x32, .f32⟩
  | .hbm, ⟨34, _⟩ => ⟨S65536x32, .f32⟩
  | .hbm, ⟨35, _⟩ => ⟨S_, .f32⟩
  | .hbm, ⟨36, _⟩ => ⟨S65536x32, .f32⟩
  | .hbm, ⟨37, _⟩ => ⟨S65536x32, .f32⟩
  | .hbm, ⟨38, _⟩ => ⟨S65536x1, .i1⟩
  | .hbm, ⟨39, _⟩ => ⟨S_, .f32⟩
  | .hbm, ⟨40, _⟩ => ⟨S_, .f32⟩
  | .hbm, ⟨41, _⟩ => ⟨S65536x32, .i1⟩
  | .hbm, ⟨42, _⟩ => ⟨S65536x32, .f32⟩
  | .hbm, ⟨43, _⟩ => ⟨S65536x32, .f32⟩
  | .hbm, ⟨44, _⟩ => ⟨S1x1024, .f32⟩
  | .hbm, ⟨45, _⟩ => ⟨S1x1024, .f32⟩
  | .hbm, ⟨46, _⟩ => ⟨S1x32, .f32⟩
  | .hbm, ⟨47, _⟩ => ⟨S65536x32, .f32⟩
  | .local _ .vmem, ⟨0, _⟩ => ⟨S4096x32, .f32⟩
  | .local _ .vmem, ⟨1, _⟩ => ⟨S4096x32, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S32x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S256x32, .f32⟩
  | .local _ .vmem, ⟨11, _⟩ => ⟨S1x32, .f32⟩
  | .local _ .vmem, ⟨12, _⟩ => ⟨S4096x32, .f32⟩
  | .local _ .vmem, ⟨13, _⟩ => ⟨S4096x32, .f32⟩
  | _, _ => ⟨S64x1024x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call1_cst : Ref sig .tc := ⟨.hbm, 35, rfl⟩
abbrev main_call1_v0 : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  concatenates_S64x1024x2_S64x1024x2_S64x1024x4_d2 : Shape.Concatenates [S64x1024x2, S64x1024x2] S64x1024x4 2
  shapeCasts_S64x1024x4_S65536x4 : S64x1024x4.ShapeCasts S65536x4
  reducesTo_S65536x4_S65536_d1 : S65536x4.ReducesTo [1] S65536
  h_S_ : 0 < S_.numel
  bcast_S65536_S65536x1_0 : S65536.BroadcastsInDim S65536x1 (![0] : Fin 1 → Fin S65536x1.rank)
  bcast_S65536x1_S65536x4_0_1 : S65536x1.BroadcastsInDim S65536x4 (![0, 1] : Fin 2 → Fin S65536x4.rank)
  bcast_S_S65536x4 : S_.BroadcastsInDim S65536x4 (![] : Fin 0 → Fin S65536x4.rank)
  reducesTo_S65536x4_S4_d0 : S65536x4.ReducesTo [0] S4
  bcast_S4_S1x4_1 : S4.BroadcastsInDim S1x4 (![1] : Fin 1 → Fin S1x4.rank)
  bcast_S1x4_S65536x4_0_1 : S1x4.BroadcastsInDim S65536x4 (![0, 1] : Fin 2 → Fin S65536x4.rank)
  concatenates_S65536x4_S65536x4_S65536x8_d1 : Shape.Concatenates [S65536x4, S65536x4] S65536x8 1
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  bcast_S_S65536x32 : S_.BroadcastsInDim S65536x32 (![] : Fin 0 → Fin S65536x32.rank)
  bcast_S65536x1_S65536x32_0_1 : S65536x1.BroadcastsInDim S65536x32 (![0, 1] : Fin 2 → Fin S65536x32.rank)
  shapeCasts_S1024_S1x1024 : S1024.ShapeCasts S1x1024
  shapeCasts_S32_S1x32 : S32.ShapeCasts S1x32
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S4096x256_S4096x256_0_0 : ∀ a, (![0, 0] : Fin 2 → Nat) a + S4096x256.size a ≤ S4096x256.size a
  h_S4096x256 : 0 < S4096x256.numel
  bitsLt_bf16_f32 : FTy.bits .bf16 < FTy.bits .f32
  inb_S32x1024_S32x256_0_256 : ∀ a, (![0, 256] : Fin 2 → Nat) a + S32x256.size a ≤ S32x1024.size a
  h_S32x256 : 0 < S32x256.numel
  inb_S256x1024_S256x256_0_256 : ∀ a, (![0, 256] : Fin 2 → Nat) a + S256x256.size a ≤ S256x1024.size a
  h_S256x256 : 0 < S256x256.numel
  inb_S1x1024_S1x256_0_256 : ∀ a, (![0, 256] : Fin 2 → Nat) a + S1x256.size a ≤ S1x1024.size a
  h_S1x256 : 0 < S1x256.numel
  shapeCasts_S1x256_S1x256 : S1x256.ShapeCasts S1x256
  broadcasts_S1x256_S4096x256 : S1x256.Broadcasts S4096x256
  inb_S32x1024_S32x256_0_0 : ∀ a, (![0, 0] : Fin 2 → Nat) a + S32x256.size a ≤ S32x1024.size a
  inb_S256x1024_S256x256_0_0 : ∀ a, (![0, 0] : Fin 2 → Nat) a + S256x256.size a ≤ S256x1024.size a
  inb_S1x1024_S1x256_0_0 : ∀ a, (![0, 0] : Fin 2 → Nat) a + S1x256.size a ≤ S1x1024.size a
  inb_S32x1024_S32x256_0_512 : ∀ a, (![0, 512] : Fin 2 → Nat) a + S32x256.size a ≤ S32x1024.size a
  inb_S256x1024_S256x256_0_512 : ∀ a, (![0, 512] : Fin 2 → Nat) a + S256x256.size a ≤ S256x1024.size a
  inb_S1x1024_S1x256_0_512 : ∀ a, (![0, 512] : Fin 2 → Nat) a + S1x256.size a ≤ S1x1024.size a
  inb_S32x1024_S32x256_0_768 : ∀ a, (![0, 768] : Fin 2 → Nat) a + S32x256.size a ≤ S32x1024.size a
  inb_S256x1024_S256x256_0_768 : ∀ a, (![0, 768] : Fin 2 → Nat) a + S256x256.size a ≤ S256x1024.size a
  inb_S1x1024_S1x256_0_768 : ∀ a, (![0, 768] : Fin 2 → Nat) a + S1x256.size a ≤ S1x1024.size a
  inb_S256x32_S256x32_0_0 : ∀ a, (![0, 0] : Fin 2 → Nat) a + S256x32.size a ≤ S256x32.size a
  h_S256x32 : 0 < S256x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  dot_S65536x8_S8x32_S65536x32_1_0_0_1_n_n_wf : DotDims.WF S65536x8 S8x32 S65536x32 [1] [0] [0] [1] [] []
  dot_S4096x32_S32x256_S4096x256_1_0_0_1_n_n_wf : DotDims.WF S4096x32 S32x256 S4096x256 [1] [0] [0] [1] [] []
  dot_S4096x256_S256x256_S4096x256_1_0_0_1_n_n_wf : DotDims.WF S4096x256 S256x256 S4096x256 [1] [0] [0] [1] [] []
  dot_S4096x256_S256x32_S4096x32_1_0_0_1_n_n_wf : DotDims.WF S4096x256 S256x32 S4096x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x32.size a ≤ S65536x32.size a
  hwx0_0 : ∀ i : grid0.Coords, EltTy.bits .f32 = 32 ∨ (Rect.block (s := S65536x32) S4096x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S65536x256.size a
  hwx0_1 : ∀ i : grid0.Coords, EltTy.bits .f32 = 32 ∨ (Rect.block (s := S65536x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S65536x256.size a
  hwx0_2 : ∀ i : grid0.Coords, EltTy.bits .f32 = 32 ∨ (Rect.block (s := S65536x256) S4096x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1024.size a ≤ S32x1024.size a
  hwx0_3 : ∀ i : grid0.Coords, EltTy.bits .f32 = 32 ∨ (Rect.block (s := S32x1024) S32x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .f32 = 32 ∨ (Rect.block (s := S256x1024) S256x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x32.size a ≤ S256x32.size a
  hwx0_7 : ∀ i : grid0.Coords, EltTy.bits .f32 = 32 ∨ (Rect.block (s := S256x32) S256x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x32.size a ≤ S65536x32.size a
  hwx0_9 : ∀ i : grid0.Coords, EltTy.bits .f32 = 32 ∨ (Rect.block (s := S65536x32) S4096x32.size (cc0_transform_9 i) (hinb0_9 i)).WholeWords (EltTy.packing .f32)

variable [Facts₀]

def dot_S65536x8_S8x32_S65536x32_1_0_0_1_n_n : DotDims S65536x8 S8x32 S65536x32 where
  lhsContracting := [1]
  rhsContracting := [0]
  lhsNonContracting := [0]
  rhsNonContracting := [1]
  lhsBatch := []
  rhsBatch := []
  wf := dot_S65536x8_S8x32_S65536x32_1_0_0_1_n_n_wf
def dot_S4096x32_S32x256_S4096x256_1_0_0_1_n_n : DotDims S4096x32 S32x256 S4096x256 where
  lhsContracting := [1]
  rhsContracting := [0]
  lhsNonContracting := [0]
  rhsNonContracting := [1]
  lhsBatch := []
  rhsBatch := []
  wf := dot_S4096x32_S32x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x32_S4096x32_1_0_0_1_n_n : DotDims S4096x256 S256x32 S4096x32 where
  lhsContracting := [1]
  rhsContracting := [0]
  lhsNonContracting := [0]
  rhsNonContracting := [1]
  lhsBatch := []
  rhsBatch := []
  wf := dot_S4096x256_S256x32_S4096x32_1_0_0_1_n_n_wf

abbrev win0_0 : Pipeline.Window sig grid0 :=
  Pipeline.Window.ofSpec (Memref.whole main_v19) S4096x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S32x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S256x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S4096x32.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S64x1024x2 : Shape := ⟨3, ![64, 1024, 2]⟩
abbrev S65536x256 : Shape := ⟨2, ![65536, 256]⟩
abbrev S8x32 : Shape := ⟨2, ![8, 32]⟩
abbrev S32 : Shape := ⟨1, ![32]⟩
abbrev S32x1024 : Shape := ⟨2, ![32, 1024]⟩
abbrev S256x1024 : Shape := ⟨2, ![256, 1024]⟩
abbrev S1024 : Shape := ⟨1, ![1024]⟩
abbrev S256x32 : Shape := ⟨2, ![256, 32]⟩
abbrev S64x1024x4 : Shape := ⟨3, ![64, 1024, 4]⟩
abbrev S65536x4 : Shape := ⟨2, ![65536, 4]⟩
abbrev S_ : Shape := ⟨0, ![]⟩
abbrev S65536 : Shape := ⟨1, ![65536]⟩
abbrev S65536x1 : Shape := ⟨2, ![65536, 1]⟩
abbrev S4 : Shape := ⟨1, ![4]⟩
abbrev S1x4 : Shape := ⟨2, ![1, 4]⟩
abbrev S65536x8 : Shape := ⟨2, ![65536, 8]⟩
abbrev S65536x32 : Shape := ⟨2, ![65536, 32]⟩
abbrev S1x32 : Shape := ⟨2, ![1, 32]⟩
abbrev S65536x1024 : Shape := ⟨2, ![65536, 1024]⟩
abbrev S1x1024 : Shape := ⟨2, ![1, 1024]⟩

abbrev nBuf : Space → Nat
  | .hbm => 91
  | .vmem => 0
  | .smem => 0
  | _ => 0

abbrev bufTy : (tb : Table) → Fin (tcTables nBuf tb) → BufTy
  | .hbm, ⟨0, _⟩ => ⟨S64x1024x2, .f32⟩
  | .hbm, ⟨1, _⟩ => ⟨S64x1024x2, .f32⟩
  | .hbm, ⟨2, _⟩ => ⟨S65536x256, .f32⟩
  | .hbm, ⟨3, _⟩ => ⟨S65536x256, .f32⟩
  | .hbm, ⟨4, _⟩ => ⟨S8x32, .f32⟩
  | .hbm, ⟨5, _⟩ => ⟨S32, .f32⟩
  | .hbm, ⟨6, _⟩ => ⟨S32x1024, .f32⟩
  | .hbm, ⟨7, _⟩ => ⟨S256x1024, .f32⟩
  | .hbm, ⟨8, _⟩ => ⟨S1024, .f32⟩
  | .hbm, ⟨9, _⟩ => ⟨S1024, .f32⟩
  | .hbm, ⟨10, _⟩ => ⟨S256x32, .f32⟩
  | .hbm, ⟨11, _⟩ => ⟨S32, .f32⟩
  | .hbm, ⟨12, _⟩ => ⟨S64x1024x2, .f32⟩
  | .hbm, ⟨13, _⟩ => ⟨S64x1024x4, .f32⟩
  | .hbm, ⟨14, _⟩ => ⟨S65536x4, .f32⟩
  | .hbm, ⟨15, _⟩ => ⟨S65536x4, .i1⟩
  | .hbm, ⟨16, _⟩ => ⟨S_, .i1⟩
  | .hbm, ⟨17, _⟩ => ⟨S65536, .i1⟩
  | .hbm, ⟨18, _⟩ => ⟨S65536, .i1⟩
  | .hbm, ⟨19, _⟩ => ⟨S65536x1, .i1⟩
  | .hbm, ⟨20, _⟩ => ⟨S_, .f32⟩
  | .hbm, ⟨21, _⟩ => ⟨S_, .f32⟩
  | .hbm, ⟨22, _⟩ => ⟨S65536x4, .i1⟩
  | .hbm, ⟨23, _⟩ => ⟨S65536x4, .f32⟩
  | .hbm, ⟨24, _⟩ => ⟨S65536x4, .f32⟩
  | .hbm, ⟨25, _⟩ => ⟨S_, .f32⟩
  | .hbm, ⟨26, _⟩ => ⟨S4, .f32⟩
  | .hbm, ⟨27, _⟩ => ⟨S1x4, .f32⟩
  | .hbm, ⟨28, _⟩ => ⟨S65536x4, .f32⟩
  | .hbm, ⟨29, _⟩ => ⟨S65536x4, .f32⟩
  | .hbm, ⟨30, _⟩ => ⟨S65536x8, .f32⟩
  | .hbm, ⟨31, _⟩ => ⟨S65536x32, .f32⟩
  | .hbm, ⟨32, _⟩ => ⟨S1x32, .f32⟩
  | .hbm, ⟨33, _⟩ => ⟨S65536x32, .f32⟩
  | .hbm, ⟨34, _⟩ => ⟨S65536x32, .f32⟩
  | .hbm, ⟨35, _⟩ => ⟨S_, .f32⟩
  | .hbm, ⟨36, _⟩ => ⟨S65536x32, .f32⟩
  | .hbm, ⟨37, _⟩ => ⟨S65536x32, .f32⟩
  | .hbm, ⟨38, _⟩ => ⟨S65536x1, .i1⟩
  | .hbm, ⟨39, _⟩ => ⟨S_, .f32⟩
  | .hbm, ⟨40, _⟩ => ⟨S_, .f32⟩
  | .hbm, ⟨41, _⟩ => ⟨S65536x32, .i1⟩
  | .hbm, ⟨42, _⟩ => ⟨S65536x32, .f32⟩
  | .hbm, ⟨43, _⟩ => ⟨S65536x32, .f32⟩
  | .hbm, ⟨44, _⟩ => ⟨S65536x1024, .f32⟩
  | .hbm, ⟨45, _⟩ => ⟨S65536x1024, .f32⟩
  | .hbm, ⟨46, _⟩ => ⟨S65536x1024, .f32⟩
  | .hbm, ⟨47, _⟩ => ⟨S1x1024, .f32⟩
  | .hbm, ⟨48, _⟩ => ⟨S65536x1024, .f32⟩
  | .hbm, ⟨49, _⟩ => ⟨S65536x1024, .f32⟩
  | .hbm, ⟨50, _⟩ => ⟨S1x1024, .f32⟩
  | .hbm, ⟨51, _⟩ => ⟨S65536x1024, .f32⟩
  | .hbm, ⟨52, _⟩ => ⟨S65536x1024, .f32⟩
  | .hbm, ⟨53, _⟩ => ⟨S65536x256, .f32⟩
  | .hbm, ⟨54, _⟩ => ⟨S65536x256, .f32⟩
  | .hbm, ⟨55, _⟩ => ⟨S65536x256, .f32⟩
  | .hbm, ⟨56, _⟩ => ⟨S65536x256, .f32⟩
  | .hbm, ⟨57, _⟩ => ⟨S65536x256, .f32⟩
  | .hbm, ⟨58, _⟩ => ⟨S65536x256, .f32⟩
  | .hbm, ⟨59, _⟩ => ⟨S_, .f32⟩
  | .hbm, ⟨60, _⟩ => ⟨S65536x256, .f32⟩
  | .hbm, ⟨61, _⟩ => ⟨S65536x256, .f32⟩
  | .hbm, ⟨62, _⟩ => ⟨S_, .f32⟩
  | .hbm, ⟨63, _⟩ => ⟨S65536x256, .f32⟩
  | .hbm, ⟨64, _⟩ => ⟨S65536x256, .f32⟩
  | .hbm, ⟨65, _⟩ => ⟨S65536x256, .f32⟩
  | .hbm, ⟨66, _⟩ => ⟨S65536x256, .f32⟩
  | .hbm, ⟨67, _⟩ => ⟨S65536x256, .f32⟩
  | .hbm, ⟨68, _⟩ => ⟨S_, .f32⟩
  | .hbm, ⟨69, _⟩ => ⟨S65536x256, .f32⟩
  | .hbm, ⟨70, _⟩ => ⟨S65536x256, .f32⟩
  | .hbm, ⟨71, _⟩ => ⟨S_, .f32⟩
  | .hbm, ⟨72, _⟩ => ⟨S65536x256, .f32⟩
  | .hbm, ⟨73, _⟩ => ⟨S65536x256, .f32⟩
  | .hbm, ⟨74, _⟩ => ⟨S65536x256, .f32⟩
  | .hbm, ⟨75, _⟩ => ⟨S65536x256, .f32⟩
  | .hbm, ⟨76, _⟩ => ⟨S65536x256, .f32⟩
  | .hbm, ⟨77, _⟩ => ⟨S65536x256, .f32⟩
  | .hbm, ⟨78, _⟩ => ⟨S65536x256, .f32⟩
  | .hbm, ⟨79, _⟩ => ⟨S_, .f32⟩
  | .hbm, ⟨80, _⟩ => ⟨S65536x256, .f32⟩
  | .hbm, ⟨81, _⟩ => ⟨S65536x256, .f32⟩
  | .hbm, ⟨82, _⟩ => ⟨S_, .f32⟩
  | .hbm, ⟨83, _⟩ => ⟨S65536x256, .f32⟩
  | .hbm, ⟨84, _⟩ => ⟨S65536x256, .f32⟩
  | .hbm, ⟨85, _⟩ => ⟨S65536x256, .f32⟩
  | .hbm, ⟨86, _⟩ => ⟨S65536x256, .f32⟩
  | .hbm, ⟨87, _⟩ => ⟨S65536x32, .f32⟩
  | .hbm, ⟨88, _⟩ => ⟨S1x32, .f32⟩
  | .hbm, ⟨89, _⟩ => ⟨S65536x32, .f32⟩
  | .hbm, ⟨90, _⟩ => ⟨S65536x32, .f32⟩
  | _, _ => ⟨S64x1024x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call1_cst : Ref sig .tc := ⟨.hbm, 35, rfl⟩
abbrev main_call1_v0 : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_2 : Ref sig .tc := ⟨.hbm, 59, rfl⟩
abbrev main_v35 : Ref sig .tc := ⟨.hbm, 60, rfl⟩
abbrev main_v36 : Ref sig .tc := ⟨.hbm, 61, rfl⟩
abbrev main_cst_3 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_4 : Ref sig .tc := ⟨.hbm, 68, rfl⟩
abbrev main_v42 : Ref sig .tc := ⟨.hbm, 69, rfl⟩
abbrev main_v43 : Ref sig .tc := ⟨.hbm, 70, rfl⟩
abbrev main_cst_5 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_6 : Ref sig .tc := ⟨.hbm, 79, rfl⟩
abbrev main_v51 : Ref sig .tc := ⟨.hbm, 80, rfl⟩
abbrev main_v52 : Ref sig .tc := ⟨.hbm, 81, rfl⟩
abbrev main_cst_7 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩

abbrev nD : Nat := 1
abbrev τ : Topo := Topo.v7x

variable {F : FTy → Type} [FloatOps F]

class Facts₀ : Prop where
  concatenates_S64x1024x2_S64x1024x2_S64x1024x4_d2 : Shape.Concatenates [S64x1024x2, S64x1024x2] S64x1024x4 2
  shapeCasts_S64x1024x4_S65536x4 : S64x1024x4.ShapeCasts S65536x4
  reducesTo_S65536x4_S65536_d1 : S65536x4.ReducesTo [1] S65536
  h_S_ : 0 < S_.numel
  bcast_S65536_S65536x1_0 : S65536.BroadcastsInDim S65536x1 (![0] : Fin 1 → Fin S65536x1.rank)
  bcast_S65536x1_S65536x4_0_1 : S65536x1.BroadcastsInDim S65536x4 (![0, 1] : Fin 2 → Fin S65536x4.rank)
  bcast_S_S65536x4 : S_.BroadcastsInDim S65536x4 (![] : Fin 0 → Fin S65536x4.rank)
  reducesTo_S65536x4_S4_d0 : S65536x4.ReducesTo [0] S4
  bcast_S4_S1x4_1 : S4.BroadcastsInDim S1x4 (![1] : Fin 1 → Fin S1x4.rank)
  bcast_S1x4_S65536x4_0_1 : S1x4.BroadcastsInDim S65536x4 (![0, 1] : Fin 2 → Fin S65536x4.rank)
  concatenates_S65536x4_S65536x4_S65536x8_d1 : Shape.Concatenates [S65536x4, S65536x4] S65536x8 1
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  bcast_S_S65536x32 : S_.BroadcastsInDim S65536x32 (![] : Fin 0 → Fin S65536x32.rank)
  bcast_S65536x1_S65536x32_0_1 : S65536x1.BroadcastsInDim S65536x32 (![0, 1] : Fin 2 → Fin S65536x32.rank)
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  slices_S65536x1024_S65536x256_0_0 : S65536x1024.Slices ![0, 0] S65536x256
  slices_S65536x1024_S65536x256_0_256 : S65536x1024.Slices ![0, 256] S65536x256
  slices_S65536x1024_S65536x256_0_512 : S65536x1024.Slices ![0, 512] S65536x256
  slices_S65536x1024_S65536x256_0_768 : S65536x1024.Slices ![0, 768] S65536x256
  bcast_S_S65536x256 : S_.BroadcastsInDim S65536x256 (![] : Fin 0 → Fin S65536x256.rank)
  dot_S65536x8_S8x32_S65536x32_1_0_0_1_n_n_wf : DotDims.WF S65536x8 S8x32 S65536x32 [1] [0] [0] [1] [] []
  dot_S65536x32_S32x1024_S65536x1024_1_0_0_1_n_n_wf : DotDims.WF S65536x32 S32x1024 S65536x1024 [1] [0] [0] [1] [] []
  dot_S65536x256_S256x1024_S65536x1024_1_0_0_1_n_n_wf : DotDims.WF S65536x256 S256x1024 S65536x1024 [1] [0] [0] [1] [] []
  dot_S65536x256_S256x32_S65536x32_1_0_0_1_n_n_wf : DotDims.WF S65536x256 S256x32 S65536x32 [1] [0] [0] [1] [] []

variable [Facts₀]

def dot_S65536x8_S8x32_S65536x32_1_0_0_1_n_n : DotDims S65536x8 S8x32 S65536x32 where
  lhsContracting := [1]
  rhsContracting := [0]
  lhsNonContracting := [0]
  rhsNonContracting := [1]
  lhsBatch := []
  rhsBatch := []
  wf := dot_S65536x8_S8x32_S65536x32_1_0_0_1_n_n_wf
def dot_S65536x32_S32x1024_S65536x1024_1_0_0_1_n_n : DotDims S65536x32 S32x1024 S65536x1024 where
  lhsContracting := [1]
  rhsContracting := [0]
  lhsNonContracting := [0]
  rhsNonContracting := [1]
  lhsBatch := []
  rhsBatch := []
  wf := dot_S65536x32_S32x1024_S65536x1024_1_0_0_1_n_n_wf
def dot_S65536x256_S256x1024_S65536x1024_1_0_0_1_n_n : DotDims S65536x256 S256x1024 S65536x1024 where
  lhsContracting := [1]
  rhsContracting := [0]
  lhsNonContracting := [0]
  rhsNonContracting := [1]
  lhsBatch := []
  rhsBatch := []
  wf := dot_S65536x256_S256x1024_S65536x1024_1_0_0_1_n_n_wf
def dot_S65536x256_S256x32_S65536x32_1_0_0_1_n_n : DotDims S65536x256 S256x32 S65536x32 where
  lhsContracting := [1]
  rhsContracting := [0]
  lhsNonContracting := [0]
  rhsNonContracting := [1]
  lhsBatch := []
  rhsBatch := []
  wf := dot_S65536x256_S256x32_S65536x32_1_0_0_1_n_n_wf

class Facts : Prop extends Facts₀ where

variable [Facts]
-- ==== Proof.Spec.lean ====
/-
  One row of an LSTM cell followed by a linear read-out, on the extended reals.

  A row carries an input `x : Fin 32 → EReal`, a hidden state `h` and a cell state `c` (`Fin 256 → EReal`). The
  four gates share ONE pre-activation over `4·256 = 1024` columns,
      pre j = (Σ_k x k · W_ih k j) + (Σ_k h k · W_hh k j) + b_ih j + b_hh j,
  the summands associated to the left exactly in this order. Columns `0..255` are the input gate, `256..511` the forget
  gate, `512..767` the candidate and `768..1023` the output gate. With σ the logistic function,
      c' k = σ (pre (256 + k)) · c k + σ (pre k) · tanh (pre (512 + k)),
      h' k = σ (pre (768 + k)) · tanh (c' k),
      out d = (Σ_k h' k · W_out k d) + b_out d.
  `G` is this row function applied to every row of the argument arrays: the result array both programs are shown to hold.
  Nothing here needs the entries to be finite: only the SAME sums, products and functions are formed on both sides.
-/
import Idealize.ShloMosaic.PureOps.Ideal
import Idealize.ShloMosaic.PureOps.IdealRules
import Idealize.ShloMosaic.Lib.ValueIdx

noncomputable section

namespace Cert.Lstm

open Idealize.ShloMosaic Idealize.ShloMosaic.ValueIdx

/-- Column `k` of the input gate's block of the `1024` gate columns. -/
abbrev colI (k : Fin 256) : Fin 1024 := ⟨k.val, by omega⟩
/-- Column `k` of the forget gate's block. -/
abbrev colF (k : Fin 256) : Fin 1024 := ⟨256 + k.val, by omega⟩
/-- Column `k` of the candidate's block. -/
abbrev colG (k : Fin 256) : Fin 1024 := ⟨512 + k.val, by omega⟩
/-- Column `k` of the output gate's block. -/
abbrev colO (k : Fin 256) : Fin 1024 := ⟨768 + k.val, by omega⟩

variable (x : Fin 32 → EReal) (h c : Fin 256 → EReal) (Wih : Fin 32 → Fin 1024 → EReal) (Whh : Fin 256 → Fin 1024 → EReal)
  (bih bhh : Fin 1024 → EReal) (Wout : Fin 256 → Fin 32 → EReal) (bout : Fin 32 → EReal)

/-- The gates' shared pre-activation at column `j`: input product, plus hidden product, plus the two biases. -/
def pre (j : Fin 1024) : EReal :=
  (∑ k : Fin 32, x k * Wih k j) + (∑ k : Fin 256, h k * Whh k j) + bih j + bhh j

/-- The new cell state: the forget gate times the old state, plus the input gate times the candidate. -/
def cell (k : Fin 256) : EReal :=
  Ideal.logistic (pre x h Wih Whh bih bhh (colF k)) * c k
    + Ideal.logistic (pre x h Wih Whh bih bhh (colI k)) * Ideal.tanh (pre x h Wih Whh bih bhh (colG k))

/-- The new hidden state: the output gate times `tanh` of the new cell state. -/
def hidden (k : Fin 256) : EReal :=
  Ideal.logistic (pre x h Wih Whh bih bhh (colO k)) * Ideal.tanh (cell x h c Wih Whh bih bhh k)

/-- The row's read-out: the new hidden state through `W_out`, plus `b_out`. -/
def row (d : Fin 32) : EReal :=
  (∑ k : Fin 256, hidden x h c Wih Whh bih bhh k * Wout k d) + bout d

/-- The logistic function spelt with the one-word `1.0`: `1 / (1 + e^(-z))` IS `Ideal.logistic z`, the word
    `0x3F800000` denoting the real `1`. -/
theorem logistic_spelt (z : EReal) :
    Ideal.div (Ideal.ofBits .f32 0x3F800000#32) (Ideal.ofBits .f32 0x3F800000#32 + Ideal.exp (-z)) = Ideal.logistic z := by
  rw [show Ideal.ofBits .f32 0x3F800000#32 = 1 from IdealRules.sign_bit.ideal_onePat .f32]
  rfl

/-- The result array: row `i 0` of the argument arrays through `row`, read at column `i 1`. -/
def G (X : (⟨2, ![65536, 32]⟩ : Shape).Idx → EReal) (H C : (⟨2, ![65536, 256]⟩ : Shape).Idx → EReal)
    (Wi : (⟨2, ![32, 1024]⟩ : Shape).Idx → EReal) (Wh : (⟨2, ![256, 1024]⟩ : Shape).Idx → EReal)
    (bi bh : (⟨1, ![1024]⟩ : Shape).Idx → EReal) (Wo : (⟨2, ![256, 32]⟩ : Shape).Idx → EReal)
    (bo : (⟨1, ![32]⟩ : Shape).Idx → EReal) : (⟨2, ![65536, 32]⟩ : Shape).Idx → EReal := fun i =>
  row (fun k => X (ix2 (i 0) k)) (fun k => H (ix2 (i 0) k)) (fun k => C (ix2 (i 0) k)) (fun k j => Wi (ix2 k j))
    (fun k j => Wh (ix2 k j)) (fun j => bi (ix1 j)) (fun j => bh (ix1 j)) (fun k d => Wo (ix2 k d)) (fun d => bo (ix1 d)) (i 1)

end Cert.Lstm

end
-- ==== Proof.KernelDots.lean ====
/-
  The kernel body's three matrix products read at an index on the extended reals. Each contracts the left operand's
  columns with the right operand's rows (the plain `M×K` by `K×N` contraction) into a zero accumulator, so its entry
  `(p, q)` is the plain sum over the contracted coordinate `k` of `left (p, k) · right (k, q)`: the input block by a
  256-column slice of `W_ih`, the hidden block by a 256-column slice of `W_hh`, and the new hidden block by `W_out`.
  A product into a zero accumulator is the accumulator-free product, and that one is the sum over `k : Fin K`.
-/
import proofs.«400963_j34772055228499_3_alg».proof.Proof.Gen.KernelIdeal
import Idealize.ShloMosaic.Lib.StackMember

noncomputable section

namespace Cert.KernelIdeal.Dots

open Cert.KernelIdeal Cert.KernelIdeal.Gen Idealize.ShloMosaic Idealize.ShloMosaic.ValueIdx

/-- The input product's dimension numbers are the plain `4096×32` by `32×256` contraction. -/
theorem xw_plain : dot_S4096x32_S32x256_S4096x256_1_0_0_1_n_n = DotDims.plain 4096 32 256 := rfl
/-- The hidden product's are the plain `4096×256` by `256×256` contraction. -/
theorem hu_plain : dot_S4096x256_S256x256_S4096x256_1_0_0_1_n_n = DotDims.plain 4096 256 256 := rfl
/-- The read-out product's are the plain `4096×256` by `256×32` contraction. -/
theorem ho_plain : dot_S4096x256_S256x32_S4096x32_1_0_0_1_n_n = DotDims.plain 4096 256 32 := rfl

/-- A block of input rows by a column slice of `W_ih`: entry `(p, q)` is `Σ_k u (p, k) · w (k, q)`, `k` over 32. -/
theorem xw_apply {φ₁ φ₂ : FTy} (u : FVec Ideal S4096x32 φ₁) (w : FVec Ideal S32x256 φ₂) (p : Fin 4096) (q : Fin 256) :
    matmul dot_S4096x32_S32x256_S4096x256_1_0_0_1_n_n none u w (constant (F := Ideal) S4096x256 .f32 0x00000000#32) (ix2 p q)
      = ∑ k : Fin 32, u (ix2 p k) * w (ix2 k q) := by
  rw [matmul_zero_eq_dotGeneral, xw_plain]
  exact StackMember.dotGeneral_plain_apply none u w p q

/-- A block of hidden rows by a column slice of `W_hh`: entry `(p, q)` is `Σ_k u (p, k) · w (k, q)`, `k` over 256. -/
theorem hu_apply {φ₁ φ₂ : FTy} (u : FVec Ideal S4096x256 φ₁) (w : FVec Ideal S256x256 φ₂) (p : Fin 4096) (q : Fin 256) :
    matmul dot_S4096x256_S256x256_S4096x256_1_0_0_1_n_n none u w (constant (F := Ideal) S4096x256 .f32 0x00000000#32) (ix2 p q)
      = ∑ k : Fin 256, u (ix2 p k) * w (ix2 k q) := by
  rw [matmul_zero_eq_dotGeneral, hu_plain]
  exact StackMember.dotGeneral_plain_apply none u w p q

/-- The new hidden block by `W_out`: entry `(p, d)` is `Σ_k u (p, k) · w (k, d)`, `k` over 256. -/
theorem ho_apply {φ₁ φ₂ : FTy} (u : FVec Ideal S4096x256 φ₁) (w : FVec Ideal S256x32 φ₂) (p : Fin 4096) (d : Fin 32) :
    matmul dot_S4096x256_S256x32_S4096x32_1_0_0_1_n_n none u w (constant (F := Ideal) S4096x32 .f32 0x00000000#32) (ix2 p d)
      = ∑ k : Fin 256, u (ix2 p k) * w (ix2 k d) := by
  rw [matmul_zero_eq_dotGeneral, ho_plain]
  exact StackMember.dotGeneral_plain_apply none u w p d

end Cert.KernelIdeal.Dots

end
-- ==== Proof.KernelRow.lean ====
/-
  What the kernel's body stores, read at row `p` and column `d` of its `4096×32` output block, is the LSTM row function
  (`Cert.Lstm.row`) of row `p` of its three row-blocks (input, hidden state, cell state) and of the whole weights.

  The body computes the gates one 256-column slice at a time. Each slice is a product of the input block with a column
  slice of `W_ih`, plus a product of the hidden block with the same column slice of `W_hh`, plus the same slice of the
  two bias rows, in that order; a change of float format is the identity on the extended reals, so the narrowed operands
  are the operands. Entry `(p, q)` of the slice starting at column `o` is therefore the row's pre-activation at column
  `o + q`. The forget slice is multiplied by the cell block, the input and candidate slices are added to it, the output
  slice gates `tanh` of the result, and the read-out product with `W_out` plus the bias row closes the row.
-/
import proofs.«400963_j34772055228499_3_alg».proof.Proof.Gen.KernelIdeal.Frame
import proofs.«400963_j34772055228499_3_alg».proof.Proof.KernelDots
import proofs.«400963_j34772055228499_3_alg».proof.Proof.Spec
import Idealize.ShloMosaic.Lib.ValueLayout
import Idealize.ShloMosaic.Lib.Pipeline.Value

noncomputable section

namespace Cert.KernelIdeal.Row

open Cert.KernelIdeal Cert.KernelIdeal.Gen Idealize.ShloMosaic Idealize.ShloMosaic.ValueIdx

/-! ## Pointwise functions and column-slice loads at an index -/

theorem tanh_apply {s : Shape} {φ : FTy} (a : FVec Ideal s φ) (i : s.Idx) : tanh a i = Ideal.tanh (a i) := rfl
theorem logistic_apply {s : Shape} {φ : FTy} (a : FVec Ideal s φ) (i : s.Idx) : logistic a i = Ideal.logistic (a i) := rfl

/-- A load of the 256 columns from `o` on of an array with 1024 columns reads, at `(k, q)`, the array at `(k, j)` with
    `j = o + q`. -/
theorem ld_cols {Val : EltTy → Type} {e : EltTy} {n0 : Nat} (X : (⟨2, ![n0, 1024]⟩ : Shape).Idx → Val e) (o : Nat)
    (inb : ∀ a, (![0, o] : Fin 2 → Nat) a + (![n0, 256] : Fin 2 → Nat) a ≤ (⟨2, ![n0, 1024]⟩ : Shape).size a)
    (k : Fin n0) (q : Fin 256) (j : Fin 1024) (hj : j.val = o + q.val) :
    View.ld X (Rect.unit (s := ⟨2, ![n0, 1024]⟩) ![0, o] ![n0, 256] inb) (ix2 k q) = X (ix2 k j) := by
  show X ((Rect.unit (s := ⟨2, ![n0, 1024]⟩) ![0, o] ![n0, 256] inb).idx (ix2 k q)) = X (ix2 k j)
  refine congrArg X (funext fun a => Fin.ext ?_)
  match a with
  | ⟨0, _⟩ => show 0 + 1 * k.val = k.val; omega
  | ⟨1, _⟩ => show o + 1 * q.val = j.val; omega

/-! ## The body's payloads at an index -/

/-- The input block after its identity cast and narrowing is the input block. -/
theorem pay2_apply (x0 : FVec Ideal S4096x32 .f32) (j : S4096x32.Idx) : k0_pay2 (F := Ideal) x0 j = x0 j := by
  unfold k0_pay2
  rw [truncf_apply, shapeCast_self]

/-- The narrowed hidden block is the hidden block. -/
theorem pay3_apply (x1 : FVec Ideal S4096x256 .f32) (j : S4096x256.Idx) : k0_pay3 (F := Ideal) x1 j = x1 j := rfl

/-- A gate slice short of its second bias: the two products and the first bias row. -/
theorem pay5_apply (x0 : FVec Ideal S4096x32 .f32) (x1 : FVec Ideal S4096x256 .f32) (w : FVec Ideal S32x256 .f32)
    (u : FVec Ideal S256x256 .f32) (b1 : FVec Ideal S1x256 .f32) (p : Fin 4096) (q : Fin 256) :
    k0_pay5 (F := Ideal) x0 x1 w u b1 (ix2 p q)
      = (∑ k : Fin 32, x0 (ix2 p k) * w (ix2 k q)) + (∑ k : Fin 256, x1 (ix2 p k) * u (ix2 k q)) + b1 (ix2 (0 : Fin 1) q) := by
  unfold k0_pay5
  rw [addf_apply, addf_apply, Dots.xw_apply, Dots.hu_apply, broadcastTo_1b_ab_apply]
  simp only [shapeCast_self, truncf_apply, pay2_apply, pay3_apply]

/-- The forget slice through the logistic function, times the cell block. -/
theorem pay4_apply (x0 : FVec Ideal S4096x32 .f32) (x1 x2 : FVec Ideal S4096x256 .f32) (w : FVec Ideal S32x256 .f32)
    (u : FVec Ideal S256x256 .f32) (b1 b2 : FVec Ideal S1x256 .f32) (p : Fin 4096) (q : Fin 256) :
    k0_pay4 (F := Ideal) x0 x1 x2 w u b1 b2 (ix2 p q)
      = Ideal.logistic ((∑ k : Fin 32, x0 (ix2 p k) * w (ix2 k q)) + (∑ k : Fin 256, x1 (ix2 p k) * u (ix2 k q))
          + b1 (ix2 (0 : Fin 1) q) + b2 (ix2 (0 : Fin 1) q)) * x2 (ix2 p q) := by
  unfold k0_pay4
  rw [mulf_apply, logistic_apply, addf_apply, addf_apply, addf_apply, Dots.xw_apply, Dots.hu_apply,
    broadcastTo_1b_ab_apply, broadcastTo_1b_ab_apply]
  simp only [shapeCast_self, truncf_apply, pay2_apply, pay3_apply]

/-- The new cell block: the gated old cell, plus the input slice (completed by its second bias) through the logistic
    function times `tanh` of the candidate slice. -/
theorem pay6_apply (a : FVec Ideal S4096x32 .bf16) (b : FVec Ideal S4096x256 .bf16) (v22 v33 : FVec Ideal S4096x256 .f32)
    (c2 : FVec Ideal S1x256 .f32) (w : FVec Ideal S32x256 .f32) (u : FVec Ideal S256x256 .f32) (b1 b2 : FVec Ideal S1x256 .f32)
    (p : Fin 4096) (q : Fin 256) :
    k0_pay6 (F := Ideal) a b v22 v33 c2 w u b1 b2 (ix2 p q)
      = v22 (ix2 p q) + Ideal.logistic (v33 (ix2 p q) + c2 (ix2 (0 : Fin 1) q))
          * Ideal.tanh ((∑ k : Fin 32, a (ix2 p k) * w (ix2 k q)) + (∑ k : Fin 256, b (ix2 p k) * u (ix2 k q))
              + b1 (ix2 (0 : Fin 1) q) + b2 (ix2 (0 : Fin 1) q)) := by
  unfold k0_pay6
  rw [addf_apply, mulf_apply, logistic_apply, tanh_apply, addf_apply, addf_apply, addf_apply, addf_apply, Dots.xw_apply,
    Dots.hu_apply, broadcastTo_1b_ab_apply, broadcastTo_1b_ab_apply, broadcastTo_1b_ab_apply]
  simp only [shapeCast_self, truncf_apply]

/-- The output slice through the logistic function. -/
theorem pay7_apply (a : FVec Ideal S4096x32 .bf16) (b : FVec Ideal S4096x256 .bf16) (w : FVec Ideal S32x256 .f32)
    (u : FVec Ideal S256x256 .f32) (b1 b2 : FVec Ideal S1x256 .f32) (p : Fin 4096) (q : Fin 256) :
    k0_pay7 (F := Ideal) a b w u b1 b2 (ix2 p q)
      = Ideal.logistic ((∑ k : Fin 32, a (ix2 p k) * w (ix2 k q)) + (∑ k : Fin 256, b (ix2 p k) * u (ix2 k q))
          + b1 (ix2 (0 : Fin 1) q) + b2 (ix2 (0 : Fin 1) q)) := by
  unfold k0_pay7
  rw [logistic_apply, addf_apply, addf_apply, addf_apply, Dots.xw_apply, Dots.hu_apply, broadcastTo_1b_ab_apply,
    broadcastTo_1b_ab_apply]
  simp only [shapeCast_self, truncf_apply]

/-- The stored block: the gated `tanh` of the new cell block through `W_out`, plus the bias row. -/
theorem pay1_apply (v56 v72 : FVec Ideal S4096x256 .f32) (wo : FVec Ideal S256x32 .f32) (bo : FVec Ideal S1x32 .f32)
    (p : Fin 4096) (d : Fin 32) :
    k0_pay1 (F := Ideal) v56 v72 wo bo (ix2 p d)
      = (∑ k : Fin 256, (v72 (ix2 p k) * Ideal.tanh (v56 (ix2 p k))) * wo (ix2 k d)) + bo (ix2 (0 : Fin 1) d) := by
  unfold k0_pay1
  rw [addf_apply, Dots.ho_apply, broadcastTo_1b_ab_apply]
  simp only [shapeCast_self, truncf_apply, mulf_apply, tanh_apply]

/-! ## The twelve column-slice loads of the body -/

/-- The forget gate's slice of `W_ih`: columns from 256. -/
theorem ld_r2 (X : Vec Ideal S32x1024 .f32) (k : Fin 32) (q : Fin 256) :
    View.ld (Val := Elt Ideal) (e' := EltTy.f32) X r0_2 (ix2 k q) = X (ix2 k (Lstm.colF q)) := ld_cols X 256 _ k q (Lstm.colF q) rfl
/-- The forget gate's slice of `W_hh`. -/
theorem ld_r3 (X : Vec Ideal S256x1024 .f32) (k : Fin 256) (q : Fin 256) :
    View.ld (Val := Elt Ideal) (e' := EltTy.f32) X r0_3 (ix2 k q) = X (ix2 k (Lstm.colF q)) := ld_cols X 256 _ k q (Lstm.colF q) rfl
/-- The forget gate's slice of a bias row. -/
theorem ld_r4 (X : Vec Ideal S1x1024 .f32) (k : Fin 1) (q : Fin 256) :
    View.ld (Val := Elt Ideal) (e' := EltTy.f32) X r0_4 (ix2 k q) = X (ix2 k (Lstm.colF q)) := ld_cols X 256 _ k q (Lstm.colF q) rfl
/-- The input gate's slice of `W_ih`: columns from 0. -/
theorem ld_r5 (X : Vec Ideal S32x1024 .f32) (k : Fin 32) (q : Fin 256) :
    View.ld (Val := Elt Ideal) (e' := EltTy.f32) X r0_5 (ix2 k q) = X (ix2 k (Lstm.colI q)) :=
  ld_cols X 0 _ k q (Lstm.colI q) (by show q.val = 0 + q.val; omega)
/-- The input gate's slice of `W_hh`. -/
theorem ld_r6 (X : Vec Ideal S256x1024 .f32) (k : Fin 256) (q : Fin 256) :
    View.ld (Val := Elt Ideal) (e' := EltTy.f32) X r0_6 (ix2 k q) = X (ix2 k (Lstm.colI q)) :=
  ld_cols X 0 _ k q (Lstm.colI q) (by show q.val = 0 + q.val; omega)
/-- The input gate's slice of a bias row. -/
theorem ld_r7 (X : Vec Ideal S1x1024 .f32) (k : Fin 1) (q : Fin 256) :
    View.ld (Val := Elt Ideal) (e' := EltTy.f32) X r0_7 (ix2 k q) = X (ix2 k (Lstm.colI q)) :=
  ld_cols X 0 _ k q (Lstm.colI q) (by show q.val = 0 + q.val; omega)
/-- The candidate's slice of `W_ih`: columns from 512. -/
theorem ld_r8 (X : Vec Ideal S32x1024 .f32) (k : Fin 32) (q : Fin 256) :
    View.ld (Val := Elt Ideal) (e' := EltTy.f32) X r0_8 (ix2 k q) = X (ix2 k (Lstm.colG q)) := ld_cols X 512 _ k q (Lstm.colG q) rfl
/-- The candidate's slice of `W_hh`. -/
theorem ld_r9 (X : Vec Ideal S256x1024 .f32) (k : Fin 256) (q : Fin 256) :
    View.ld (Val := Elt Ideal) (e' := EltTy.f32) X r0_9 (ix2 k q) = X (ix2 k (Lstm.colG q)) := ld_cols X 512 _ k q (Lstm.colG q) rfl
/-- The candidate's slice of a bias row. -/
theorem ld_r10 (X : Vec Ideal S1x1024 .f32) (k : Fin 1) (q : Fin 256) :
    View.ld (Val := Elt Ideal) (e' := EltTy.f32) X r0_10 (ix2 k q) = X (ix2 k (Lstm.colG q)) := ld_cols X 512 _ k q (Lstm.colG q) rfl
/-- The output gate's slice of `W_ih`: columns from 768. -/
theorem ld_r11 (X : Vec Ideal S32x1024 .f32) (k : Fin 32) (q : Fin 256) :
    View.ld (Val := Elt Ideal) (e' := EltTy.f32) X r0_11 (ix2 k q) = X (ix2 k (Lstm.colO q)) := ld_cols X 768 _ k q (Lstm.colO q) rfl
/-- The output gate's slice of `W_hh`. -/
theorem ld_r12 (X : Vec Ideal S256x1024 .f32) (k : Fin 256) (q : Fin 256) :
    View.ld (Val := Elt Ideal) (e' := EltTy.f32) X r0_12 (ix2 k q) = X (ix2 k (Lstm.colO q)) := ld_cols X 768 _ k q (Lstm.colO q) rfl
/-- The output gate's slice of a bias row. -/
theorem ld_r13 (X : Vec Ideal S1x1024 .f32) (k : Fin 1) (q : Fin 256) :
    View.ld (Val := Elt Ideal) (e' := EltTy.f32) X r0_13 (ix2 k q) = X (ix2 k (Lstm.colO q)) := ld_cols X 768 _ k q (Lstm.colO q) rfl

/-! ## The stored block is the row function of each of its rows -/

/-- The body's arithmetic over ABSTRACT gate slices: if the four weight slices of `W_ih` and of `W_hh` and the four slices
    of each bias row read, at column `q`, the whole blocks at the gate's column (`colI`, `colF`, `colG`, `colO` of `q`),
    then the stored value at row `p`, column `d` is the row function of row `p`: the body's sums, products and functions
    are the row function's, term by term. -/
theorem body_row (x0 : FVec Ideal S4096x32 .f32) (x1 x2 : FVec Ideal S4096x256 .f32) (x3 : FVec Ideal S32x1024 .f32)
    (x4 : FVec Ideal S256x1024 .f32) (x5 x6 : FVec Ideal S1x1024 .f32) (x7 : FVec Ideal S256x32 .f32)
    (x8 : FVec Ideal S1x32 .f32)
    (wI wF wG wO : FVec Ideal S32x256 .f32) (uI uF uG uO : FVec Ideal S256x256 .f32)
    (bI cI bF cF bG cG bO cO : FVec Ideal S1x256 .f32)
    (hwI : ∀ k q, wI (ix2 k q) = x3 (ix2 k (Lstm.colI q))) (hwF : ∀ k q, wF (ix2 k q) = x3 (ix2 k (Lstm.colF q)))
    (hwG : ∀ k q, wG (ix2 k q) = x3 (ix2 k (Lstm.colG q))) (hwO : ∀ k q, wO (ix2 k q) = x3 (ix2 k (Lstm.colO q)))
    (huI : ∀ k q, uI (ix2 k q) = x4 (ix2 k (Lstm.colI q))) (huF : ∀ k q, uF (ix2 k q) = x4 (ix2 k (Lstm.colF q)))
    (huG : ∀ k q, uG (ix2 k q) = x4 (ix2 k (Lstm.colG q))) (huO : ∀ k q, uO (ix2 k q) = x4 (ix2 k (Lstm.colO q)))
    (hbI : ∀ q, bI (ix2 (0 : Fin 1) q) = x5 (ix2 (0 : Fin 1) (Lstm.colI q)))
    (hbF : ∀ q, bF (ix2 (0 : Fin 1) q) = x5 (ix2 (0 : Fin 1) (Lstm.colF q)))
    (hbG : ∀ q, bG (ix2 (0 : Fin 1) q) = x5 (ix2 (0 : Fin 1) (Lstm.colG q)))
    (hbO : ∀ q, bO (ix2 (0 : Fin 1) q) = x5 (ix2 (0 : Fin 1) (Lstm.colO q)))
    (hcI : ∀ q, cI (ix2 (0 : Fin 1) q) = x6 (ix2 (0 : Fin 1) (Lstm.colI q)))
    (hcF : ∀ q, cF (ix2 (0 : Fin 1) q) = x6 (ix2 (0 : Fin 1) (Lstm.colF q)))
    (hcG : ∀ q, cG (ix2 (0 : Fin 1) q) = x6 (ix2 (0 : Fin 1) (Lstm.colG q)))
    (hcO : ∀ q, cO (ix2 (0 : Fin 1) q) = x6 (ix2 (0 : Fin 1) (Lstm.colO q)))
    (p : Fin 4096) (d : Fin 32) :
    k0_pay1 (F := Ideal)
        (k0_pay6 (k0_pay2 x0) (k0_pay3 x1) (k0_pay4 x0 x1 x2 wF uF bF cF) (k0_pay5 x0 x1 wI uI bI) cI wG uG bG cG)
        (k0_pay7 (k0_pay2 x0) (k0_pay3 x1) wO uO bO cO) x7 x8 (ix2 p d)
      = Lstm.row (fun k => x0 (ix2 p k)) (fun k => x1 (ix2 p k)) (fun k => x2 (ix2 p k)) (fun k j => x3 (ix2 k j))
          (fun k j => x4 (ix2 k j)) (fun j => x5 (ix2 (0 : Fin 1) j)) (fun j => x6 (ix2 (0 : Fin 1) j))
          (fun k d => x7 (ix2 k d)) (fun d => x8 (ix2 (0 : Fin 1) d)) d := by
  unfold Lstm.row Lstm.hidden Lstm.cell Lstm.pre
  simp only [pay1_apply, pay7_apply, pay6_apply, pay4_apply, pay5_apply, pay2_apply, pay3_apply, hwI, hwF, hwG, hwO, huI,
    huF, huG, huO, hbI, hbF, hbG, hbO, hcI, hcF, hcG, hcO]

theorem hz : (![0, 0] : Fin 2 → Nat) = fun _ => 0 := funext fun a => by fin_cases a <;> rfl

/-- What the body leaves in the output window's buffer, at row `p` and column `d`: the LSTM row function of row `p` of the
    three row-blocks and of the weight and bias blocks, read at `d`. Each gate's loads are the 256-column slices of the
    weight and bias blocks from the gate's first column. -/
theorem out_row (x0 : FVec Ideal S4096x32 .f32) (x1 x2 : FVec Ideal S4096x256 .f32) (x3 : FVec Ideal S32x1024 .f32)
    (x4 : FVec Ideal S256x1024 .f32) (x5 x6 : FVec Ideal S1x1024 .f32) (x7 : FVec Ideal S256x32 .f32)
    (x8 : FVec Ideal S1x32 .f32) (p : Fin 4096) (d : Fin 32) :
    out0_9 (F := Ideal) x0 x1 x2 x3 x4 x5 x6 x7 x8 (ix2 p d)
      = Lstm.row (fun k => x0 (ix2 p k)) (fun k => x1 (ix2 p k)) (fun k => x2 (ix2 p k)) (fun k j => x3 (ix2 k j))
          (fun k j => x4 (ix2 k j)) (fun j => x5 (ix2 (0 : Fin 1) j)) (fun j => x6 (ix2 (0 : Fin 1) j))
          (fun k d => x7 (ix2 k d)) (fun d => x8 (ix2 (0 : Fin 1) d)) d := by
  unfold out0_9
  rw [View.canon_unit_zero hz]
  simp only [View.ld_unit_zero (S := S4096x32) hz, View.ld_unit_zero (S := S4096x256) hz,
    View.ld_unit_zero (S := S256x32) hz, View.ld_unit_zero (S := S1x32) hz]
  have hwF := ld_r2 x3; have huF := ld_r3 x4; have hbF := ld_r4 x5 0; have hcF := ld_r4 x6 0
  have hwI := ld_r5 x3; have huI := ld_r6 x4; have hbI := ld_r7 x5 0; have hcI := ld_r7 x6 0
  have hwG := ld_r8 x3; have huG := ld_r9 x4; have hbG := ld_r10 x5 0; have hcG := ld_r10 x6 0
  have hwO := ld_r11 x3; have huO := ld_r12 x4; have hbO := ld_r13 x5 0; have hcO := ld_r13 x6 0
  generalize View.ld (Val := Elt Ideal) (e' := EltTy.f32) x3 r0_2 = wF at hwF ⊢
  generalize View.ld (Val := Elt Ideal) (e' := EltTy.f32) x4 r0_3 = uF at huF ⊢
  generalize View.ld (Val := Elt Ideal) (e' := EltTy.f32) x5 r0_4 = bF at hbF ⊢
  generalize View.ld (Val := Elt Ideal) (e' := EltTy.f32) x6 r0_4 = cF at hcF ⊢
  generalize View.ld (Val := Elt Ideal) (e' := EltTy.f32) x3 r0_5 = wI at hwI ⊢
  generalize View.ld (Val := Elt Ideal) (e' := EltTy.f32) x4 r0_6 = uI at huI ⊢
  generalize View.ld (Val := Elt Ideal) (e' := EltTy.f32) x5 r0_7 = bI at hbI ⊢
  generalize View.ld (Val := Elt Ideal) (e' := EltTy.f32) x6 r0_7 = cI at hcI ⊢
  generalize View.ld (Val := Elt Ideal) (e' := EltTy.f32) x3 r0_8 = wG at hwG ⊢
  generalize View.ld (Val := Elt Ideal) (e' := EltTy.f32) x4 r0_9 = uG at huG ⊢
  generalize View.ld (Val := Elt Ideal) (e' := EltTy.f32) x5 r0_10 = bG at hbG ⊢
  generalize View.ld (Val := Elt Ideal) (e' := EltTy.f32) x6 r0_10 = cG at hcG ⊢
  generalize View.ld (Val := Elt Ideal) (e' := EltTy.f32) x3 r0_11 = wO at hwO ⊢
  generalize View.ld (Val := Elt Ideal) (e' := EltTy.f32) x4 r0_12 = uO at huO ⊢
  generalize View.ld (Val := Elt Ideal) (e' := EltTy.f32) x5 r0_13 = bO at hbO ⊢
  generalize View.ld (Val := Elt Ideal) (e' := EltTy.f32) x6 r0_13 = cO at hcO ⊢
  exact body_row x0 x1 x2 x3 x4 x5 x6 x7 x8 wI wF wG wO uI uF uG uO bI cI bF cF bG cG bO cO hwI hwF hwG hwO huI huF huG huO
    hbI hbF hbG hbO hcI hcF hcG hcO p d

end Cert.KernelIdeal.Row

end
-- ==== Proof.HostGlue.lean ====
/-
  What the kernel program's host operations hand to the one kernel launch, as the launch finds it.

  Before the launch the program computes, on the host, the LSTM cell's input array `x` — the velocity, the per-agent
  state with invisible agents zeroed, the sum over all agents, the feature vector through `W_emb` and `b_emb`, the
  rectifier and the visibility mask — by the SAME operations, in the same order, as the reference does: the array the
  launch stages as its first window is the reference's stage `val_main_v19` of the same arguments. It also reshapes the
  two gate biases and the read-out bias into one-row matrices.
-/
import proofs.«400963_j34772055228499_3_alg».proof.Proof.Gen.KernelIdeal.Frame
import proofs.«400963_j34772055228499_3_alg».proof.Proof.RefRead
import Idealize.ShloMosaic.Lib.StableHlo.Run

noncomputable section

namespace Cert.KernelIdeal.HostGlue

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxRecDepth 1000000 in
set_option maxHeartbeats 4000000 in
/-- The cell's input array at the launch is the reference's stage of the same four arguments. -/
theorem V_x (c : Dev nD) :
    (V m c main_v19 : S65536x32.Idx → Elt F .f32)
      = Cert.ReferenceIdeal.ReadP.val_main_v19 (F := F) (m ((c : Thread nD τ).loc main_arg0)) (m ((c : Thread nD τ).loc main_arg1))
          (m ((c : Thread nD τ).loc main_arg4)) (m ((c : Thread nD τ).loc main_arg5)) := by
  unfold V
  simp only [hostOps0, hostOps0_1, hostOps0_2, hostOps0_3, hostOps0_4, hostOps0_5, hostOps0_6, List.flatten_cons,
    List.flatten_nil, List.append_nil, List.cons_append, List.nil_append]
  after_results_simp <;> rfl

set_option maxRecDepth 1000000 in
set_option maxHeartbeats 4000000 in
/-- The first gate bias at the launch: the argument vector as a one-row matrix. -/
theorem V_bih (c : Dev nD) :
    (V m c main_v20 : S1x1024.Idx → Elt F .f32) = shapeCast S1x1024 (m ((c : Thread nD τ).loc main_arg8)) shapeCasts_S1024_S1x1024 := by
  unfold V
  simp only [hostOps0, hostOps0_1, hostOps0_2, hostOps0_3, hostOps0_4, hostOps0_5, hostOps0_6, List.flatten_cons,
    List.flatten_nil, List.append_nil, List.cons_append, List.nil_append]
  after_results_simp <;> rfl

set_option maxRecDepth 1000000 in
set_option maxHeartbeats 4000000 in
/-- The second gate bias at the launch: the argument vector as a one-row matrix. -/
theorem V_bhh (c : Dev nD) :
    (V m c main_v21 : S1x1024.Idx → Elt F .f32) = shapeCast S1x1024 (m ((c : Thread nD τ).loc main_arg9)) shapeCasts_S1024_S1x1024 := by
  unfold V
  simp only [hostOps0, hostOps0_1, hostOps0_2, hostOps0_3, hostOps0_4, hostOps0_5, hostOps0_6, List.flatten_cons,
    List.flatten_nil, List.append_nil, List.cons_append, List.nil_append]
  after_results_simp <;> rfl

set_option maxRecDepth 1000000 in
set_option maxHeartbeats 4000000 in
/-- The read-out bias at the launch: the argument vector as a one-row matrix. -/
theorem V_bout (c : Dev nD) :
    (V m c main_v22 : S1x32.Idx → Elt F .f32) = shapeCast S1x32 (m ((c : Thread nD τ).loc main_arg11)) shapeCasts_S32_S1x32 := by
  unfold V
  simp only [hostOps0, hostOps0_1, hostOps0_2, hostOps0_3, hostOps0_4, hostOps0_5, hostOps0_6, List.flatten_cons,
    List.flatten_nil, List.append_nil, List.cons_append, List.nil_append]
  after_results_simp <;> rfl

end Cert.KernelIdeal.HostGlue

end
-- ==== Proof.KernelValue.lean ====
/-
  The kernel's result array, from its blocks.

  The grid has 16 points. At point `t` the three row-blocked windows (the cell's input array, the hidden state, the cell
  state) hold rows `4096·t … 4096·t + 4095` of their arrays, the weight and bias windows hold their whole arrays, and the
  output window's block is rows `4096·t … 4096·t + 4095` of the result. What the body stores at row `p` of the block is
  the LSTM row function of row `p` of the input blocks, that is, of row `4096·t + p` of the arrays; the 16 blocks tile
  the `65536` rows, so the whole result array is the row function of every row: `Cert.Lstm.G`. The gate biases and the
  read-out bias reach the launch as one-row matrices, whose entry `(0, j)` is the vector's entry `j`.
-/
import proofs.«400963_j34772055228499_3_alg».proof.Proof.Gen.KernelIdeal.Value
import proofs.«400963_j34772055228499_3_alg».proof.Proof.KernelRow
import proofs.«400963_j34772055228499_3_alg».proof.Proof.HostGlue
import proofs.«400963_j34772055228499_3_alg».proof.Proof.Spec
import Idealize.ShloMosaic.Lib.ValueLayout

noncomputable section

namespace Cert.KernelIdeal.Final

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the launch finds, and the windows' blocks, at their literal types -/

abbrev aX (c : Dev nD) : FVec Ideal S65536x32 .f32 := V m c main_v19
abbrev aH (c : Dev nD) : FVec Ideal S65536x256 .f32 := V m c main_arg2
abbrev aC (c : Dev nD) : FVec Ideal S65536x256 .f32 := V m c main_arg3
abbrev aWi (c : Dev nD) : FVec Ideal S32x1024 .f32 := V m c main_arg6
abbrev aWh (c : Dev nD) : FVec Ideal S256x1024 .f32 := V m c main_arg7
abbrev aBi (c : Dev nD) : FVec Ideal S1x1024 .f32 := V m c main_v20
abbrev aBh (c : Dev nD) : FVec Ideal S1x1024 .f32 := V m c main_v21
abbrev aWo (c : Dev nD) : FVec Ideal S256x32 .f32 := V m c main_arg10
abbrev aBo (c : Dev nD) : FVec Ideal S1x32 .f32 := V m c main_v22

abbrev b0 (c : Dev nD) (t : Fin cfg0.N) : FVec Ideal S4096x32 .f32 := iblk m c 0 t
abbrev b1 (c : Dev nD) (t : Fin cfg0.N) : FVec Ideal S4096x256 .f32 := iblk m c 1 t
abbrev b2 (c : Dev nD) (t : Fin cfg0.N) : FVec Ideal S4096x256 .f32 := iblk m c 2 t
abbrev b3 (c : Dev nD) (t : Fin cfg0.N) : FVec Ideal S32x1024 .f32 := iblk m c 3 t
abbrev b4 (c : Dev nD) (t : Fin cfg0.N) : FVec Ideal S256x1024 .f32 := iblk m c 4 t
abbrev b5 (c : Dev nD) (t : Fin cfg0.N) : FVec Ideal S1x1024 .f32 := iblk m c 5 t
abbrev b6 (c : Dev nD) (t : Fin cfg0.N) : FVec Ideal S1x1024 .f32 := iblk m c 6 t
abbrev b7 (c : Dev nD) (t : Fin cfg0.N) : FVec Ideal S256x32 .f32 := iblk m c 7 t
abbrev b8 (c : Dev nD) (t : Fin cfg0.N) : FVec Ideal S1x32 .f32 := iblk m c 8 t

/-! ## The printed index maps, decided over the 16 points -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)

/-- Row `p` of point `t`'s row block is row `4096·t + p` of the array. -/
def rowAt (t : Fin cfg0.N) (p : Fin 4096) : Fin 65536 :=
  ⟨t.val * 4096 + p.val, by have ht := t.isLt; have hN : cfg0.N = 16 := N_0; have hp := p.isLt; omega⟩

/-! ## The blocks read at an index -/

/-- Block `t` of the cell's input array is its rows from `4096·t`. -/
theorem b0_apply (c : Dev nD) (t : Fin cfg0.N) (p : Fin 4096) (k : Fin 32) :
    b0 m c t (ix2 p k) = aX m c (ix2 (rowAt t p) k) := by
  obtain ⟨e0, e1⟩ := idx0 t
  show V m c main_v19 (((cfg0.win 0).blk t).view.emb (ix2 p k)) = V m c main_v19 (ix2 (rowAt t p) k)
  rw [show ((cfg0.win 0).blk t).view.emb (ix2 p k) = ix2 (rowAt t p) k from Shape.idx_ext₂
    (by show win0_0.index t (0 : Fin 2) * 4096 + 1 * p.val = t.val * 4096 + p.val; rw [e0]; omega)
    (by show win0_0.index t (1 : Fin 2) * 32 + 1 * k.val = k.val; rw [e1]; omega)]

/-- Block `t` of the hidden state is its rows from `4096·t`. -/
theorem b1_apply (c : Dev nD) (t : Fin cfg0.N) (p : Fin 4096) (k : Fin 256) :
    b1 m c t (ix2 p k) = aH m c (ix2 (rowAt t p) k) := by
  obtain ⟨e0, e1⟩ := idx1 t
  show V m c main_arg2 (((cfg0.win 1).blk t).view.emb (ix2 p k)) = V m c main_arg2 (ix2 (rowAt t p) k)
  rw [show ((cfg0.win 1).blk t).view.emb (ix2 p k) = ix2 (rowAt t p) k from Shape.idx_ext₂
    (by show win0_1.index t (0 : Fin 2) * 4096 + 1 * p.val = t.val * 4096 + p.val; rw [e0]; omega)
    (by show win0_1.index t (1 : Fin 2) * 256 + 1 * k.val = k.val; rw [e1]; omega)]

/-- Block `t` of the cell state is its rows from `4096·t`. -/
theorem b2_apply (c : Dev nD) (t : Fin cfg0.N) (p : Fin 4096) (k : Fin 256) :
    b2 m c t (ix2 p k) = aC m c (ix2 (rowAt t p) k) := by
  obtain ⟨e0, e1⟩ := idx2 t
  show V m c main_arg3 (((cfg0.win 2).blk t).view.emb (ix2 p k)) = V m c main_arg3 (ix2 (rowAt t p) k)
  rw [show ((cfg0.win 2).blk t).view.emb (ix2 p k) = ix2 (rowAt t p) k from Shape.idx_ext₂
    (by show win0_2.index t (0 : Fin 2) * 4096 + 1 * p.val = t.val * 4096 + p.val; rw [e0]; omega)
    (by show win0_2.index t (1 : Fin 2) * 256 + 1 * k.val = k.val; rw [e1]; omega)]

/-- Every point's block of `W_ih` is the whole array. -/
theorem b3_apply (c : Dev nD) (t : Fin cfg0.N) (k : Fin 32) (j : Fin 1024) : b3 m c t (ix2 k j) = aWi m c (ix2 k j) := by
  obtain ⟨e0, e1⟩ := idx3 t
  show V m c main_arg6 (((cfg0.win 3).blk t).view.emb (ix2 k j)) = V m c main_arg6 (ix2 k j)
  rw [show ((cfg0.win 3).blk t).view.emb (ix2 k j) = ix2 k j from Shape.idx_ext₂
    (by show win0_3.index t (0 : Fin 2) * 32 + 1 * k.val = k.val; rw [e0]; omega)
    (by show win0_3.index t (1 : Fin 2) * 1024 + 1 * j.val = j.val; rw [e1]; omega)]

/-- Every point's block of `W_hh` is the whole array. -/
theorem b4_apply (c : Dev nD) (t : Fin cfg0.N) (k : Fin 256) (j : Fin 1024) : b4 m c t (ix2 k j) = aWh m c (ix2 k j) := by
  obtain ⟨e0, e1⟩ := idx4 t
  show V m c main_arg7 (((cfg0.win 4).blk t).view.emb (ix2 k j)) = V m c main_arg7 (ix2 k j)
  rw [show ((cfg0.win 4).blk t).view.emb (ix2 k j) = ix2 k j from Shape.idx_ext₂
    (by show win0_4.index t (0 : Fin 2) * 256 + 1 * k.val = k.val; rw [e0]; omega)
    (by show win0_4.index t (1 : Fin 2) * 1024 + 1 * j.val = j.val; rw [e1]; omega)]

/-- Every point's block of the first gate bias is the whole one-row matrix. -/
theorem b5_apply (c : Dev nD) (t : Fin cfg0.N) (k : Fin 1) (j : Fin 1024) : b5 m c t (ix2 k j) = aBi m c (ix2 k j) := by
  obtain ⟨e0, e1⟩ := idx5 t
  show V m c main_v20 (((cfg0.win 5).blk t).view.emb (ix2 k j)) = V m c main_v20 (ix2 k j)
  rw [show ((cfg0.win 5).blk t).view.emb (ix2 k j) = ix2 k j from Shape.idx_ext₂
    (by show win0_5.index t (0 : Fin 2) * 1 + 1 * k.val = k.val; rw [e0]; omega)
    (by show win0_5.index t (1 : Fin 2) * 1024 + 1 * j.val = j.val; rw [e1]; omega)]

/-- Every point's block of the second gate bias is the whole one-row matrix. -/
theorem b6_apply (c : Dev nD) (t : Fin cfg0.N) (k : Fin 1) (j : Fin 1024) : b6 m c t (ix2 k j) = aBh m c (ix2 k j) := by
  obtain ⟨e0, e1⟩ := idx6 t
  show V m c main_v21 (((cfg0.win 6).blk t).view.emb (ix2 k j)) = V m c main_v21 (ix2 k j)
  rw [show ((cfg0.win 6).blk t).view.emb (ix2 k j) = ix2 k j from Shape.idx_ext₂
    (by show win0_6.index t (0 : Fin 2) * 1 + 1 * k.val = k.val; rw [e0]; omega)
    (by show win0_6.index t (1 : Fin 2) * 1024 + 1 * j.val = j.val; rw [e1]; omega)]

/-- Every point's block of `W_out` is the whole array. -/
theorem b7_apply (c : Dev nD) (t : Fin cfg0.N) (k : Fin 256) (d : Fin 32) : b7 m c t (ix2 k d) = aWo m c (ix2 k d) := by
  obtain ⟨e0, e1⟩ := idx7 t
  show V m c main_arg10 (((cfg0.win 7).blk t).view.emb (ix2 k d)) = V m c main_arg10 (ix2 k d)
  rw [show ((cfg0.win 7).blk t).view.emb (ix2 k d) = ix2 k d from Shape.idx_ext₂
    (by show win0_7.index t (0 : Fin 2) * 256 + 1 * k.val = k.val; rw [e0]; omega)
    (by show win0_7.index t (1 : Fin 2) * 32 + 1 * d.val = d.val; rw [e1]; omega)]

/-- Every point's block of the read-out bias is the whole one-row matrix. -/
theorem b8_apply (c : Dev nD) (t : Fin cfg0.N) (k : Fin 1) (d : Fin 32) : b8 m c t (ix2 k d) = aBo m c (ix2 k d) := by
  obtain ⟨e0, e1⟩ := idx8 t
  show V m c main_v22 (((cfg0.win 8).blk t).view.emb (ix2 k d)) = V m c main_v22 (ix2 k d)
  rw [show ((cfg0.win 8).blk t).view.emb (ix2 k d) = ix2 k d from Shape.idx_ext₂
    (by show win0_8.index t (0 : Fin 2) * 1 + 1 * k.val = k.val; rw [e0]; omega)
    (by show win0_8.index t (1 : Fin 2) * 32 + 1 * d.val = d.val; rw [e1]; omega)]

/-! ## What each point writes back, and the array the writes leave -/

/-- The row function of every row of the arrays as the launch finds them. -/
def Gk (c : Dev nD) : FVec Ideal S65536x32 .f32 := fun i =>
  Lstm.row (fun k => aX m c (ix2 (i 0) k)) (fun k => aH m c (ix2 (i 0) k)) (fun k => aC m c (ix2 (i 0) k))
    (fun k j => aWi m c (ix2 k j)) (fun k j => aWh m c (ix2 k j)) (fun j => aBi m c (ix2 (0 : Fin 1) j))
    (fun j => aBh m c (ix2 (0 : Fin 1) j)) (fun k d => aWo m c (ix2 k d)) (fun d => aBo m c (ix2 (0 : Fin 1) d)) (i 1)

/-- WHAT POINT `t` WRITES BACK is block `t` of `Gk`. -/
theorem flushed9_eq (c : Dev nD) (t : Fin cfg0.N) :
    (dats m 0 c).flushed 9 t = ((cfg0.win 9).blk t).view.read (Elt Ideal) (Gk m c) := by
  rw [Value.flushed9]
  funext j
  obtain ⟨p, d, rfl⟩ : ∃ (p : Fin 4096) (d : Fin 32), j = ix2 p d := ⟨j 0, j 1, eq_ix2 j⟩
  show out0_9 (F := Ideal) (b0 m c t) (b1 m c t) (b2 m c t) (b3 m c t) (b4 m c t) (b5 m c t) (b6 m c t) (b7 m c t) (b8 m c t) (ix2 p d)
    = Gk m c (((cfg0.win 9).blk t).view.emb (ix2 p d))
  obtain ⟨e0, e1⟩ := idx9 t
  rw [show ((cfg0.win 9).blk t).view.emb (ix2 p d) = ix2 (rowAt t p) d from Shape.idx_ext₂
    (by show win0_9.index t (0 : Fin 2) * 4096 + 1 * p.val = t.val * 4096 + p.val; rw [e0]; omega)
    (by show win0_9.index t (1 : Fin 2) * 32 + 1 * d.val = d.val; rw [e1]; omega)]
  refine (Row.out_row (b0 m c t) (b1 m c t) (b2 m c t) (b3 m c t) (b4 m c t) (b5 m c t) (b6 m c t) (b7 m c t) (b8 m c t) p d).trans ?_
  rw [show (fun k => b0 m c t (ix2 p k)) = fun k => aX m c (ix2 (rowAt t p) k) from funext fun k => b0_apply m c t p k,
    show (fun k => b1 m c t (ix2 p k)) = fun k => aH m c (ix2 (rowAt t p) k) from funext fun k => b1_apply m c t p k,
    show (fun k => b2 m c t (ix2 p k)) = fun k => aC m c (ix2 (rowAt t p) k) from funext fun k => b2_apply m c t p k,
    show (fun k j => b3 m c t (ix2 k j)) = fun k j => aWi m c (ix2 k j) from funext fun k => funext fun j => b3_apply m c t k j,
    show (fun k j => b4 m c t (ix2 k j)) = fun k j => aWh m c (ix2 k j) from funext fun k => funext fun j => b4_apply m c t k j,
    show (fun j => b5 m c t (ix2 (0 : Fin 1) j)) = fun j => aBi m c (ix2 (0 : Fin 1) j) from funext fun j => b5_apply m c t 0 j,
    show (fun j => b6 m c t (ix2 (0 : Fin 1) j)) = fun j => aBh m c (ix2 (0 : Fin 1) j) from funext fun j => b6_apply m c t 0 j,
    show (fun k d => b7 m c t (ix2 k d)) = fun k d => aWo m c (ix2 k d) from funext fun k => funext fun d => b7_apply m c t k d,
    show (fun d => b8 m c t (ix2 (0 : Fin 1) d)) = fun d => aBo m c (ix2 (0 : Fin 1) d) from funext fun d => b8_apply m c t 0 d]
  rfl

/-- An index of the result array is in point `t`'s block iff each coordinate is in the block's range on its axis. -/
theorem mem_blk9 (t : Fin cfg0.N) (i : S65536x32.Idx) :
    i ∈ ((cfg0.win 9).blk t).view.set
      ↔ ∀ a : Fin 2, win0_9.index t a * S4096x32.size a ≤ (i a).val ∧ (i a).val < win0_9.index t a * S4096x32.size a + S4096x32.size a := by
  show i ∈ ((View.whole main_v23).slice (win0_9.rect t)).set ↔ _
  rw [View.set_slice_whole, Rect.mem_set_unit]
  exact Iff.rfl

/-- THE BLOCKS TILE THE ARRAY: row `r` is in the block of point `r / 4096`. -/
theorem cover9 (i : S65536x32.Idx) :
    ∃ t : Fin cfg0.N, (cfg0.win 9).flush t = true ∧ i ∈ ((cfg0.win 9).blk t).view.set := by
  have hi0 : (i 0).val < 65536 := (i 0).isLt
  have hi1 : (i 1).val < 32 := (i 1).isLt
  have hN : cfg0.N = 16 := N_0
  obtain ⟨t, ht⟩ : ∃ t : Fin cfg0.N, t.val = (i 0).val / 4096 := ⟨⟨(i 0).val / 4096, by omega⟩, rfl⟩
  obtain ⟨e0, e1⟩ := idx9 t
  refine ⟨t, flush0_9 t, ?_⟩
  rw [mem_blk9]
  intro a
  match a with
  | ⟨0, _⟩ =>
    show win0_9.index t (0 : Fin 2) * 4096 ≤ (i 0).val ∧ (i 0).val < win0_9.index t (0 : Fin 2) * 4096 + 4096
    rw [e0, ht]; omega
  | ⟨1, _⟩ =>
    show win0_9.index t (1 : Fin 2) * 32 ≤ (i 1).val ∧ (i 1).val < win0_9.index t (1 : Fin 2) * 32 + 32
    rw [e1]; omega

/-- THE RESULT ARRAY after the run is `Gk`. -/
theorem final9 (c : Dev nD) : (dats m 0 c).arrAt 9 cfg0.N = Gk m c :=
  (dats m 0 c).arrAt_eq_of_cover 9 (Gk m c) (fun t _ => flushed9_eq m c t) cover9

/-! ## The result as a function of the arguments -/

/-- `Gk` is `Cert.Lstm.G` of the reference's stage for the cell's input array and of the argument arrays: the launch
    finds the arguments as launched, the input array as that stage, and each bias vector as a one-row matrix. -/
theorem Gk_eq (c : Dev nD) :
    Gk m c = Lstm.G (Cert.ReferenceIdeal.ReadP.val_main_v19 (F := Ideal) (m ((c : Thread nD τ).loc main_arg0)) (m ((c : Thread nD τ).loc main_arg1))
        (m ((c : Thread nD τ).loc main_arg4)) (m ((c : Thread nD τ).loc main_arg5)))
      (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9))
      (m ((c : Thread nD τ).loc main_arg10)) (m ((c : Thread nD τ).loc main_arg11)) := by
  funext i
  have hBi : ∀ j : Fin 1024, aBi m c (ix2 (0 : Fin 1) j) = (m ((c : Thread nD τ).loc main_arg8)) (ix1 j) := fun j => by
    show V m c main_v20 (ix2 (0 : Fin 1) j) = _
    rw [HostGlue.V_bih m c]; exact shapeCast_a_1a_apply _ _ 0 j
  have hBh : ∀ j : Fin 1024, aBh m c (ix2 (0 : Fin 1) j) = (m ((c : Thread nD τ).loc main_arg9)) (ix1 j) := fun j => by
    show V m c main_v21 (ix2 (0 : Fin 1) j) = _
    rw [HostGlue.V_bhh m c]; exact shapeCast_a_1a_apply _ _ 0 j
  have hBo : ∀ d : Fin 32, aBo m c (ix2 (0 : Fin 1) d) = (m ((c : Thread nD τ).loc main_arg11)) (ix1 d) := fun d => by
    show V m c main_v22 (ix2 (0 : Fin 1) d) = _
    rw [HostGlue.V_bout m c]; exact shapeCast_a_1a_apply _ _ 0 d
  unfold Gk Lstm.G
  simp only [hBi, hBh, hBo]
  show Lstm.row (fun k => V m c main_v19 (ix2 (i 0) k)) (fun k => V m c main_arg2 (ix2 (i 0) k))
      (fun k => V m c main_arg3 (ix2 (i 0) k)) (fun k j => V m c main_arg6 (ix2 k j)) (fun k j => V m c main_arg7 (ix2 k j))
      _ _ (fun k d => V m c main_arg10 (ix2 k d)) _ (i 1) = _
  rw [HostGlue.V_x m c, V_main_arg2 m c, V_main_arg3 m c, V_main_arg6 m c, V_main_arg7 m c, V_main_arg10 m c]

/-! ## The run, read -/

/-- Every weakly fair execution of the kernel program terminates with the result array at `Cert.Lstm.G` of the arguments
    and the arguments unchanged. -/
theorem run : θ_run defs (onTc (τ := τ) (main (F := Ideal))) ⟨m, fun _ => 0, ρ⟩ fun r => ∀ c : Dev nD,
      r.2.mem ((c : Thread nD τ).loc main_v23)
        = Lstm.G (Cert.ReferenceIdeal.ReadP.val_main_v19 (F := Ideal) (m ((c : Thread nD τ).loc main_arg0)) (m ((c : Thread nD τ).loc main_arg1))
            (m ((c : Thread nD τ).loc main_arg4)) (m ((c : Thread nD τ).loc main_arg5)))
          (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9))
          (m ((c : Thread nD τ).loc main_arg10)) (m ((c : Thread nD τ).loc main_arg11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans ((final9 m c).trans (Gk_eq m c)), (h c).2⟩) (Value.run_blocks m ρ)

end Cert.KernelIdeal.Final

end
-- ==== Proof.RefRow.lean ====
/-
  The reference, read one stage at a time, computes the LSTM row function (`Cert.Lstm.row`) of every row.

  Its gates are ONE `65536×1024` array: the input array times `W_ih`, plus the hidden state times `W_hh`, plus the two
  bias vectors laid along every row, summed in that order — entry `(r, j)` is row `r`'s pre-activation at column `j`.
  The four gates are its column slices from `0`, `256`, `512` and `768`. The logistic function is spelt
  `1 / (1 + e^(-z))` with the one-word `1.0`, which is `Ideal.logistic z`. The new cell and hidden states and the
  read-out product follow the row function's definition term by term.
  The input array of the cell (the embedded, masked features) is kept as the stage `val_main_v19`: nothing here opens it.
-/
import proofs.«400963_j34772055228499_3_alg».proof.Proof.RefRead
import proofs.«400963_j34772055228499_3_alg».proof.Proof.Spec

noncomputable section

namespace Cert.ReferenceIdeal.RefRow

open Cert.ReferenceIdeal Cert.ReferenceIdeal.Gen Cert.ReferenceIdeal.ReadP Idealize.ShloMosaic Idealize.ShloMosaic.ValueIdx

variable (x0 x1 : FVec Ideal S64x1024x2 .f32) (x2 x3 : FVec Ideal S65536x256 .f32) (x4 : FVec Ideal S8x32 .f32)
  (x5 : FVec Ideal S32 .f32) (x6 : FVec Ideal S32x1024 .f32) (x7 : FVec Ideal S256x1024 .f32) (x8 x9 : FVec Ideal S1024 .f32)
  (x10 : FVec Ideal S256x32 .f32) (x11 : FVec Ideal S32 .f32)

/-! ## The stages' index maps at an index given by its coordinates -/

theorem lidx20 (r : Fin 65536) (j : Fin 1024) (k : Fin 32) : lidx_main_v20 (ix2 r j) k = ix2 r k :=
  funext fun a => by match a with | ⟨0, _⟩ => rfl | ⟨1, _⟩ => rfl
theorem ridx20 (r : Fin 65536) (j : Fin 1024) (k : Fin 32) : ridx_main_v20 (ix2 r j) k = ix2 k j :=
  funext fun a => by match a with | ⟨0, _⟩ => rfl | ⟨1, _⟩ => rfl
theorem lidx21 (r : Fin 65536) (j : Fin 1024) (k : Fin 256) : lidx_main_v21 (ix2 r j) k = ix2 r k :=
  funext fun a => by match a with | ⟨0, _⟩ => rfl | ⟨1, _⟩ => rfl
theorem ridx21 (r : Fin 65536) (j : Fin 1024) (k : Fin 256) : ridx_main_v21 (ix2 r j) k = ix2 k j :=
  funext fun a => by match a with | ⟨0, _⟩ => rfl | ⟨1, _⟩ => rfl
theorem idx23_24 (r : Fin 65536) (j : Fin 1024) : idx_main_v23 (idx_main_v24 (ix2 r j)) = ix1 j :=
  funext fun a => by match a with | ⟨0, _⟩ => rfl
theorem idx26_27 (r : Fin 65536) (j : Fin 1024) : idx_main_v26 (idx_main_v27 (ix2 r j)) = ix1 j :=
  funext fun a => by match a with | ⟨0, _⟩ => rfl
theorem idx29 (r : Fin 65536) (k : Fin 256) : idx_main_v29 (ix2 r k) = ix2 r (Lstm.colI k) :=
  funext fun a => by match a with | ⟨0, _⟩ => rfl | ⟨1, _⟩ => rfl
theorem idx30 (r : Fin 65536) (k : Fin 256) : idx_main_v30 (ix2 r k) = ix2 r (Lstm.colF k) :=
  funext fun a => by match a with | ⟨0, _⟩ => rfl | ⟨1, _⟩ => rfl
theorem idx31 (r : Fin 65536) (k : Fin 256) : idx_main_v31 (ix2 r k) = ix2 r (Lstm.colG k) :=
  funext fun a => by match a with | ⟨0, _⟩ => rfl | ⟨1, _⟩ => rfl
theorem idx32 (r : Fin 65536) (k : Fin 256) : idx_main_v32 (ix2 r k) = ix2 r (Lstm.colO k) :=
  funext fun a => by match a with | ⟨0, _⟩ => rfl | ⟨1, _⟩ => rfl
theorem lidx57 (r : Fin 65536) (d : Fin 32) (k : Fin 256) : lidx_main_v57 (ix2 r d) k = ix2 r k :=
  funext fun a => by match a with | ⟨0, _⟩ => rfl | ⟨1, _⟩ => rfl
theorem ridx57 (r : Fin 65536) (d : Fin 32) (k : Fin 256) : ridx_main_v57 (ix2 r d) k = ix2 k d :=
  funext fun a => by match a with | ⟨0, _⟩ => rfl | ⟨1, _⟩ => rfl
theorem idx58_59 (r : Fin 65536) (d : Fin 32) : idx_main_v58 (idx_main_v59 (ix2 r d)) = ix1 d :=
  funext fun a => by match a with | ⟨0, _⟩ => rfl

/-! ## The row's data -/

/-- Row `r` of the cell's input array (the stage the products read). -/
abbrev xrow (r : Fin 65536) : Fin 32 → EReal := fun k => val_main_v19 (F := Ideal) x0 x1 x4 x5 (ix2 r k)
/-- Row `r`'s pre-activation at column `j`, over the reference's arrays. -/
abbrev preAt (r : Fin 65536) (j : Fin 1024) : EReal :=
  Lstm.pre (xrow x0 x1 x4 x5 r) (fun k => x2 (ix2 r k)) (fun k j => x6 (ix2 k j)) (fun k j => x7 (ix2 k j))
    (fun j => x8 (ix1 j)) (fun j => x9 (ix1 j)) j

/-! ## The stages -/

/-- The gates' array at `(r, j)` is row `r`'s pre-activation at column `j`. -/
theorem v28_pre (r : Fin 65536) (j : Fin 1024) :
    val_main_v28 (F := Ideal) x0 x1 x2 x4 x5 x6 x7 x8 x9 (ix2 r j) = preAt x0 x1 x2 x4 x5 x6 x7 x8 x9 r j := by
  rw [val_main_v28_apply, val_main_v25_apply, val_main_v22_apply, val_main_v20_apply, val_main_v21_apply,
    val_main_v24_apply, val_main_v23_apply, val_main_v27_apply, val_main_v26_apply]
  simp only [lidx20, ridx20, lidx21, ridx21, idx23_24, idx26_27]
  rfl

/-- The new cell state at `(r, k)`. -/
theorem v48_cell (r : Fin 65536) (k : Fin 256) :
    val_main_v48 (F := Ideal) x0 x1 x2 x3 x4 x5 x6 x7 x8 x9 (ix2 r k)
      = Lstm.cell (xrow x0 x1 x4 x5 r) (fun k => x2 (ix2 r k)) (fun k => x3 (ix2 r k)) (fun k j => x6 (ix2 k j))
          (fun k j => x7 (ix2 k j)) (fun j => x8 (ix1 j)) (fun j => x9 (ix1 j)) k := by
  rw [val_main_v48_apply, val_main_v39_apply, val_main_v38_apply, val_main_v37_apply, val_main_cst_3_apply,
    val_main_v36_apply, val_main_v35_apply, val_main_cst_2_apply, val_main_v34_apply, val_main_v33_apply,
    val_main_v30_apply, idx30, v28_pre,
    val_main_v47_apply, val_main_v45_apply, val_main_v44_apply, val_main_cst_5_apply, val_main_v43_apply,
    val_main_v42_apply, val_main_cst_4_apply, val_main_v41_apply, val_main_v40_apply, val_main_v29_apply, idx29, v28_pre,
    val_main_v46_apply, val_main_v31_apply, idx31, v28_pre]
  simp only [Ideal.addf_def, Ideal.mulf_def, Ideal.hostDivf_def, Ideal.hostUnary_exp_def, Ideal.hostNegf_def,
    Ideal.negf_def, Ideal.hostUnary_tanh_def, Ideal.ofBits_def, Lstm.logistic_spelt]
  rfl

/-- The new hidden state at `(r, k)`. -/
theorem v56_hidden (r : Fin 65536) (k : Fin 256) :
    val_main_v56 (F := Ideal) x0 x1 x2 x3 x4 x5 x6 x7 x8 x9 (ix2 r k)
      = Lstm.hidden (xrow x0 x1 x4 x5 r) (fun k => x2 (ix2 r k)) (fun k => x3 (ix2 r k)) (fun k j => x6 (ix2 k j))
          (fun k j => x7 (ix2 k j)) (fun j => x8 (ix1 j)) (fun j => x9 (ix1 j)) k := by
  rw [val_main_v56_apply, val_main_v54_apply, val_main_v53_apply, val_main_cst_7_apply, val_main_v52_apply,
    val_main_v51_apply, val_main_cst_6_apply, val_main_v50_apply, val_main_v49_apply, val_main_v32_apply, idx32, v28_pre,
    val_main_v55_apply, v48_cell]
  simp only [Ideal.addf_def, Ideal.mulf_def, Ideal.hostDivf_def, Ideal.hostUnary_exp_def, Ideal.hostNegf_def,
    Ideal.negf_def, Ideal.hostUnary_tanh_def, Ideal.ofBits_def, Lstm.logistic_spelt]
  rfl

/-- THE REFERENCE'S RESULT is the row function of every row: `G` of the cell's input array and the argument arrays. -/
theorem v60_eq_G :
    val_main_v60 (F := Ideal) x0 x1 x2 x3 x4 x5 x6 x7 x8 x9 x10 x11
      = Lstm.G (val_main_v19 (F := Ideal) x0 x1 x4 x5) x2 x3 x6 x7 x8 x9 x10 x11 := by
  funext i
  obtain ⟨r, d, rfl⟩ : ∃ (r : Fin 65536) (d : Fin 32), i = ix2 r d := ⟨i 0, i 1, eq_ix2 i⟩
  rw [val_main_v60_apply, val_main_v57_apply, val_main_v59_apply, val_main_v58_apply]
  simp only [lidx57, ridx57, idx58_59, v56_hidden, Ideal.addf_def]
  rfl

end Cert.ReferenceIdeal.RefRow

end
-- ==== Proof.lean ====
/-
  One LSTM-cell step with a linear read-out over 65536 agents, kernel against reference, on the extended reals.

  Both programs first form the cell's input array on the host by the same operations (agents' states with invisible
  agents zeroed, their sum over all agents, the features through an affine map and a rectifier, masked again). The
  reference then forms all four gates as ONE `65536×1024` array (input product, plus hidden product, plus the two
  biases, in that order), cuts it into four column slices, applies the logistic function spelt `1 / (1 + e^(-z))` and
  `tanh`, and reads the new hidden state out through `W_out` and `b_out`. The kernel walks 16 blocks of 4096 rows; in
  each it forms every gate from the matching 256-column slices of the weights and biases (same summands, same order; the
  narrowing of the products' operands is the identity on the extended reals), uses the logistic function itself, and
  stores the read-out. Column `q` of the slice starting at `o` is column `o + q` of the reference's gate array, a product
  into a zero accumulator is the plain sum over the contracted coordinate, and the spelt logistic function is the
  logistic function, so both result arrays are the same row function of every row (`Cert.Lstm.G`). No law that could fail
  at an infinity is used: the precondition is never opened.

  The three frames are the programs' runs with the result dropped; the kernel's idealization rewrote nothing.
-/
import proofs.«400963_j34772055228499_3_alg».proof.Defs
import proofs.«400963_j34772055228499_3_alg».proof.Proof.Gen.Kernel
import proofs.«400963_j34772055228499_3_alg».proof.Proof.Gen.Kernel.Skeleton
import proofs.«400963_j34772055228499_3_alg».proof.Proof.Gen.Kernel.Launch
import proofs.«400963_j34772055228499_3_alg».proof.Proof.Gen.Kernel.Points
import proofs.«400963_j34772055228499_3_alg».proof.Proof.Gen.Kernel.Frame
import proofs.«400963_j34772055228499_3_alg».proof.Proof.Gen.KernelIdeal
import proofs.«400963_j34772055228499_3_alg».proof.Proof.Gen.KernelIdeal.Skeleton
import proofs.«400963_j34772055228499_3_alg».proof.Proof.Gen.KernelIdeal.Launch
import proofs.«400963_j34772055228499_3_alg».proof.Proof.Gen.KernelIdeal.Points
import proofs.«400963_j34772055228499_3_alg».proof.Proof.Gen.KernelIdeal.Frame
import proofs.«400963_j34772055228499_3_alg».proof.Proof.Gen.ReferenceIdeal
import proofs.«400963_j34772055228499_3_alg».proof.Proof.Gen.Pre_finite_inputs
import proofs.«400963_j34772055228499_3_alg».proof.Proof.Gen.KernelIdeal.Value
import proofs.«400963_j34772055228499_3_alg».proof.Proof.RefRead
import proofs.«400963_j34772055228499_3_alg».proof.Proof.Spec
import proofs.«400963_j34772055228499_3_alg».proof.Proof.KernelValue
import proofs.«400963_j34772055228499_3_alg».proof.Proof.RefRow
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end with the result array at `Cert.Lstm.G` of the cell's
    input array and the arguments: the kernel's by its blocks, the reference's stage by stage. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10, a11⟩ := hagree c
  rw [Cert.ReferenceIdeal.ReadP.val_main_v60_eq, Cert.ReferenceIdeal.RefRow.v60_eq_G, a0, a1, a2, a3, a4, a5, a6, a7, a8,
    a9, a10, a11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
